-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048 : Shape := ⟨2, ![1, 2048]⟩
abbrev S4096x32000 : Shape := ⟨2, ![4096, 32000]⟩
abbrev S32000x2048 : Shape := ⟨2, ![32000, 2048]⟩
abbrev S2048x2048 : Shape := ⟨2, ![2048, 2048]⟩
abbrev S2048x32000 : Shape := ⟨2, ![2048, 32000]⟩
abbrev S2048 : Shape := ⟨1, ![2048]⟩
abbrev S32000 : Shape := ⟨1, ![32000]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S4096x32000 : S_.BroadcastsInDim S4096x32000 (![] : Fin 0 → Fin S4096x32000.rank)
  reducesTo_S4096x32000_S_d0_1 : S4096x32000.ReducesTo [0, 1] S_
  bcast_S_S32000x2048 : S_.BroadcastsInDim S32000x2048 (![] : Fin 0 → Fin S32000x2048.rank)
  reducesTo_S32000x2048_S_d0_1 : S32000x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x32000 : S_.BroadcastsInDim S2048x32000 (![] : Fin 0 → Fin S2048x32000.rank)
  reducesTo_S2048x32000_S_d0_1 : S2048x32000.ReducesTo [0, 1] S_
  bcast_S_S2048 : S_.BroadcastsInDim S2048 (![] : Fin 0 → Fin S2048.rank)
  reducesTo_S2048_S_d0 : S2048.ReducesTo [0] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg4 : FVec F S2048x32000 .f32) (main_arg5 : FVec F S2048 .f32) (main_arg6 : FVec F S32000 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x32000 .f32 := Host.absf main_arg4
  let main_cst_6 : FVec F S_ .f32 := constant S_ .f32 0x7F800000#32
  let main_v20 : FVec F S2048x32000 .f32 := broadcastInDim S2048x32000 ![] bcast_S_S2048x32000 main_cst_6
  let main_v21 : IVec S2048x32000 1 := cmpf .olt main_v19 main_v20
  let main_c_7 : IVec S_ 1 := constantI S_ 1 1#1
  let main_v22 : IVec S_ 1 := (fun x v => Host.reduce IntOp.andi x v reducesTo_S2048x32000_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S32000 .f32 := Host.absf main_arg6
  let main_cst_10 : FVec F S_ .f32 := constant S_ .f32 0x7F800000#32
  let main_v30 : FVec F S32000 .f32 := broadcastInDim S32000 ![] bcast_S_S32000 main_cst_10
  let main_v31 : IVec S32000 1 := cmpf .olt main_v29 main_v30
  let main_c_11 : IVec S_ 1 := constantI S_ 1 1#1
  let main_v32 : IVec S_ 1 := (fun x v => Host.reduce IntOp.andi x v reducesTo_S32000_S_d0 h_S_) main_v31 main_c_11
  let main_v33 : IVec S_ 1 := andi main_v28 main_v32
  main_v33

def fn {F : FTy → Type} [FloatOps F] (main_arg0 : FVec F S1x2048 .f32) (main_arg1 : FVec F S4096x32000 .f32) (main_arg2 : FVec F S32000x2048 .f32) (main_arg3 : FVec F S2048x2048 .f32) (main_arg4 : FVec F S2048x32000 .f32) (main_arg5 : FVec F S2048 .f32) (main_arg6 : FVec F S32000 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S4096x32000 .f32 := Host.absf main_arg1
  let main_cst_0 : FVec F S_ .f32 := constant S_ .f32 0x7F800000#32
  let main_v5 : FVec F S4096x32000 .f32 := broadcastInDim S4096x32000 ![] bcast_S_S4096x32000 main_cst_0
  let main_v6 : IVec S4096x32000 1 := cmpf .olt main_v4 main_v5
  let main_c_1 : IVec S_ 1 := constantI S_ 1 1#1
  let main_v7 : IVec S_ 1 := (fun x v => Host.reduce IntOp.andi x v reducesTo_S4096x32000_S_d0_1 h_S_) main_v6 main_c_1
  let main_v8 : IVec S_ 1 := andi main_v3 main_v7
  let main_v9 : FVec F S32000x2048 .f32 := Host.absf main_arg2
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S1x2048 : Shape := ⟨2, ![1, 2048]⟩
abbrev S4096x32000 : Shape := ⟨2, ![4096, 32000]⟩
abbrev S32000x2048 : Shape := ⟨2, ![32000, 2048]⟩
abbrev S2048x2048 : Shape := ⟨2, ![2048, 2048]⟩
abbrev S2048x32000 : Shape := ⟨2, ![2048, 32000]⟩
abbrev S2048 : Shape := ⟨1, ![2048]⟩
abbrev S32000 : Shape := ⟨1, ![32000]⟩
abbrev S4096x2048 : Shape := ⟨2, ![4096, 2048]⟩
abbrev S512x640 : Shape := ⟨2, ![512, 640]⟩
abbrev S640x2048 : Shape := ⟨2, ![640, 2048]⟩
abbrev S512x2048 : Shape := ⟨2, ![512, 2048]⟩
abbrev S1x32000 : Shape := ⟨2, ![1, 32000]⟩
abbrev S2048x640 : Shape := ⟨2, ![2048, 640]⟩
abbrev S1x640 : Shape := ⟨2, ![1, 640]⟩

abbrev nBuf : Space → Nat
  | .hbm => 14
  | .vmem => 16
  | .smem => 0
  | _ => 0

abbrev bufTy : (tb : Table) → Fin (tcTables nBuf tb) → BufTy
  | .hbm, ⟨0, _⟩ => ⟨S1x2048, .f32⟩
  | .hbm, ⟨1, _⟩ => ⟨S4096x32000, .f32⟩
  | .hbm, ⟨2, _⟩ => ⟨S32000x2048, .f32⟩
  | .hbm, ⟨3, _⟩ => ⟨S2048x2048, .f32⟩
  | .hbm, ⟨4, _⟩ => ⟨S2048x32000, .f32⟩
  | .hbm, ⟨5, _⟩ => ⟨S2048, .f32⟩
  | .hbm, ⟨6, _⟩ => ⟨S32000, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S1x32000, .f32⟩
  | .hbm, ⟨12, _⟩ => ⟨S4096x32000, .f32⟩
  | .hbm, ⟨13, _⟩ => ⟨S1x2048, .f32⟩
  | .local _ .vmem, ⟨0, _⟩ => ⟨S512x640, .f32⟩
  | .local _ .vmem, ⟨1, _⟩ => ⟨S512x640, .f32⟩
  | .local _ .vmem, ⟨2, _⟩ => ⟨S640x2048, .f32⟩
  | .local _ .vmem, ⟨3, _⟩ => ⟨S640x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S2048x640, .f32⟩
  | .local _ .vmem, ⟨11, _⟩ => ⟨S2048x640, .f32⟩
  | .local _ .vmem, ⟨12, _⟩ => ⟨S1x640, .f32⟩
  | .local _ .vmem, ⟨13, _⟩ => ⟨S1x640, .f32⟩
  | .local _ .vmem, ⟨14, _⟩ => ⟨S512x640, .f32⟩
  | .local _ .vmem, ⟨15, _⟩ => ⟨S512x640, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![8, 50], ![false, false]⟩

def k0_cond2 (i : grid0.Coords) : BitVec 1 :=
  let arg1 : BitVec 32 := BitVec.ofNat 32 (i 1).val
  let c49_i32 : BitVec 32 := 49#32
  let v13 : BitVec 1 := Scalar.cmpi .eq arg1 c49_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 50], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S2048_S1x2048_1 : S2048.BroadcastsInDim S1x2048 (![1] : Fin 1 → Fin S1x2048.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x640_S512x640_0_0 : ∀ a, (![0, 0] : Fin 2 → Nat) a + S512x640.size a ≤ S512x640.size a
  h_S512x640 : 0 < S512x640.numel
  bitsLt_bf16_f32 : FTy.bits .bf16 < FTy.bits .f32
  inb_S640x2048_S640x2048_0_0 : ∀ a, (![0, 0] : Fin 2 → Nat) a + S640x2048.size a ≤ S640x2048.size a
  h_S640x2048 : 0 < S640x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S32000_S1x32000 : S32000.ShapeCasts S1x32000
  inb_S2048x640_S2048x640_0_0 : ∀ a, (![0, 0] : Fin 2 → Nat) a + S2048x640.size a ≤ S2048x640.size a
  h_S2048x640 : 0 < S2048x640.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  slices_S4096x2048_S1x2048_4095_0 : S4096x2048.Slices ![4095, 0] S1x2048
  dot_S1x2048_S2048x2048_S1x2048_1_0_0_1_n_n_wf : DotDims.WF S1x2048 S2048x2048 S1x2048 [1] [0] [0] [1] [] []
  dot_S512x640_S640x2048_S512x2048_1_0_0_1_n_n_wf : DotDims.WF S512x640 S640x2048 S512x2048 [1] [0] [0] [1] [] []
  dot_S512x2048_S2048x640_S512x640_1_0_0_1_n_n_wf : DotDims.WF S512x2048 S2048x640 S512x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x640.size a ≤ S4096x32000.size a
  hwx0_0 : ∀ i : grid0.Coords, EltTy.bits .f32 = 32 ∨ (Rect.block (s := S4096x32000) S512x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x640.size a ≤ S2048x32000.size a
  hwx1_1 : ∀ i : grid1.Coords, EltTy.bits .f32 = 32 ∨ (Rect.block (s := S2048x32000) S2048x640.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x640.size a ≤ S1x32000.size a
  hwx1_2 : ∀ i : grid1.Coords, EltTy.bits .f32 = 32 ∨ (Rect.block (s := S1x32000) S1x640.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x640.size a ≤ S4096x32000.size a
  hwx1_3 : ∀ i : grid1.Coords, EltTy.bits .f32 = 32 ∨ (Rect.block (s := S4096x32000) S512x640.size (cc1_transform_3 i) (hinb1_3 i)).WholeWords (EltTy.packing .f32)

variable [Facts₀]

def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S512x640_S640x2048_S512x2048_1_0_0_1_n_n : DotDims S512x640 S640x2048 S512x2048 where
  lhsContracting := [1]
  rhsContracting := [0]
  lhsNonContracting := [0]
  rhsNonContracting := [1]
  lhsBatch := []
  rhsBatch := []
  wf := dot_S512x640_S640x2048_S512x2048_1_0_0_1_n_n_wf
def dot_S512x2048_S2048x640_S512x640_1_0_0_1_n_n : DotDims S512x2048 S2048x640 S512x640 where
  lhsContracting := [1]
  rhsContracting := [0]
  lhsNonContracting := [0]
  rhsNonContracting := [1]
  lhsBatch := []
  rhsBatch := []
  wf := dot_S512x2048_S2048x640_S512x640_1_0_0_1_n_n_wf

abbrev win0_0 : Pipeline.Window sig grid0 :=
  Pipeline.Window.ofSpec (Memref.whole main_arg1) S512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x640.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x2048 : Shape := ⟨2, ![1, 2048]⟩
abbrev S4096x32000 : Shape := ⟨2, ![4096, 32000]⟩
abbrev S32000x2048 : Shape := ⟨2, ![32000, 2048]⟩
abbrev S2048x2048 : Shape := ⟨2, ![2048, 2048]⟩
abbrev S2048x32000 : Shape := ⟨2, ![2048, 32000]⟩
abbrev S2048 : Shape := ⟨1, ![2048]⟩
abbrev S32000 : Shape := ⟨1, ![32000]⟩
abbrev S4096x2048 : Shape := ⟨2, ![4096, 2048]⟩
abbrev S1x32000 : Shape := ⟨2, ![1, 32000]⟩

abbrev nBuf : Space → Nat
  | .hbm => 19
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S4096x32000, .f32⟩
  | .hbm, ⟨2, _⟩ => ⟨S32000x2048, .f32⟩
  | .hbm, ⟨3, _⟩ => ⟨S2048x2048, .f32⟩
  | .hbm, ⟨4, _⟩ => ⟨S2048x32000, .f32⟩
  | .hbm, ⟨5, _⟩ => ⟨S2048, .f32⟩
  | .hbm, ⟨6, _⟩ => ⟨S32000, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x32000, .f32⟩
  | .hbm, ⟨15, _⟩ => ⟨S1x32000, .f32⟩
  | .hbm, ⟨16, _⟩ => ⟨S4096x32000, .f32⟩
  | .hbm, ⟨17, _⟩ => ⟨S4096x32000, .f32⟩
  | .hbm, ⟨18, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  slices_S4096x2048_S1x2048_4095_0 : S4096x2048.Slices ![4095, 0] S1x2048
  dot_S1x2048_S2048x2048_S1x2048_1_0_0_1_n_n_wf : DotDims.WF S1x2048 S2048x2048 S1x2048 [1] [0] [0] [1] [] []
  dot_S4096x32000_S32000x2048_S4096x2048_1_0_0_1_n_n_wf : DotDims.WF S4096x32000 S32000x2048 S4096x2048 [1] [0] [0] [1] [] []
  dot_S4096x2048_S2048x32000_S4096x32000_1_0_0_1_n_n_wf : DotDims.WF S4096x2048 S2048x32000 S4096x32000 [1] [0] [0] [1] [] []

variable [Facts₀]

def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S4096x32000_S32000x2048_S4096x2048_1_0_0_1_n_n : DotDims S4096x32000 S32000x2048 S4096x2048 where
  lhsContracting := [1]
  rhsContracting := [0]
  lhsNonContracting := [0]
  rhsNonContracting := [1]
  lhsBatch := []
  rhsBatch := []
  wf := dot_S4096x32000_S32000x2048_S4096x2048_1_0_0_1_n_n_wf
def dot_S4096x2048_S2048x32000_S4096x32000_1_0_0_1_n_n : DotDims S4096x2048 S2048x32000 S4096x32000 where
  lhsContracting := [1]
  rhsContracting := [0]
  lhsNonContracting := [0]
  rhsNonContracting := [1]
  lhsBatch := []
  rhsBatch := []
  wf := dot_S4096x2048_S2048x32000_S4096x32000_1_0_0_1_n_n_wf

class Facts : Prop extends Facts₀ where

variable [Facts]
-- ==== Proof.K.R0Base.lean ====
/-
  The first kernel region (the hidden layer), what its three control cases share.

  The grid is 8 row blocks by 50 steps along the contracted axis, visited row block by row block. Within a row block the
  kernel keeps a 512 x 2048 accumulator in a scratch buffer: step 0 clears it, every step adds the product of the
  step's 512 x 640 block of `x` with the step's 640 x 2048 block of `Wxh`, and step 49 writes
  `tanh (accumulator + hc)` into the output block. So a point is in one of three cases: the first step of a row block
  (clear, add), a middle step (add), the last step (add, write the output).
-/
import proofs.«125350_j40604620816471_1_alg».proof.Proof.Gen.Kernel.Launch
import proofs.«125350_j40604620816471_1_alg».proof.Proof.Gen.Kernel.Skeleton
import proofs.«125350_j40604620816471_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered: every statement here is over this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The `Wxh` window's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The shared row's staging buffer (fetched once, at the first point) holds its one block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the grid -/

/-- "This is the first step of a row block": the condition of the body's first `scf.if`. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 50 = 0 :=
  (by decide +kernel : ∀ t : Fin grid0.N, isFirst (grid0.coords t) ↔ t.val % 50 = 0)

/-- "This is the last step of a row block": the condition of the body's second `scf.if`. -/
abbrev isLast (i : grid0.Coords) : Prop := k0_cond2 i = 1#1
theorem isLast_iff : ∀ t : Fin cfg0.N, isLast (grid0.coords t) ↔ t.val % 50 = 49 :=
  (by decide +kernel : ∀ t : Fin grid0.N, isLast (grid0.coords t) ↔ t.val % 50 = 49)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Off the last step of a row block the output window is idle (nothing is stored into it) and is not written back. -/
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
/-- On the last step it is live. -/
theorem live0_3 : ∀ t : Fin cfg0.N, isLast (grid0.coords t) → cfg0.idle 3 (grid0.coords t) = false := by decide +kernel

/-! ## The memrefs the body is called with -/

abbrev ms0_0 (t : Fin cfg0.N) : Memref sig .tc .vmem S512x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev accM : Memref sig .tc .vmem S512x2048 .f32 := Memref.whole cc0_scratch0
/-- The views through which the accumulator's and the output block's contents are stated. -/
abbrev accV : View sig .tc .vmem S512x2048 .f32 := accM.view
abbrev outV : View sig .tc .vmem S512x2048 .f32 := (Memref.whole cc0_stg3_0 : Memref sig .tc .vmem S512x2048 .f32).view

/-- The region invariant of a kernel that keeps nothing, with the accumulator spelt out: the accumulator at some
    contents, the second region's staging buffers at some contents (`rest0`), the generator register at some state. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA0_eq (c : Dev nD) :
    (Pipeline.ΦA spec0 c : sProp 𝕄)
      = iprop(iprop((∃ d, owns (c : Thread nD τ) accM fullShare d) ∗ rest0 (F := F) c) ∗ (∃ r, prngReg c r)) := by
  unfold Pipeline.ΦA rest0; rw [scopedRest0_eq]; simp only [accM, owns_whole]; try rfl

end Cert.Kernel.Hand

end
-- ==== Proof.K.R0RunFirst.lean ====
/-
  The first kernel's body at the FIRST step of a row block: the accumulator is cleared, then the step's product is added to it; the output block is not touched.
-/
import proofs.«125350_j40604620816471_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents `x0`, `x1`, the shared row at `x2`, the output block at
    `xi` (handed back untouched), the accumulator at anything — the body runs to the continuation holding the inputs and
    the output block as they were and the accumulator with the pieces `LS` written: the pieces are found by the run. -/
noncomputable def kernelRunFirst (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i)
    (x0 : Vec F S512x640 .f32) (x1 : Vec F S640x2048 .f32) (x2 : Vec F S1x2048 .f32) :
    { LS : List (View.Piece (Elt F) S512x2048 .f32) //
      ∀ (xi : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__h_kernel i arg2 harg2 arg3 harg3 arg4 harg4 arg5 harg5 arg6 harg6) K } := by
  refine ⟨?_, fun xi E K => ?run⟩
  case run =>
    simp only [cc0__h_kernel_eq_skeleton]; unfold cc0__h_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.R0RunMid.lean ====
/-
  The first kernel's body at a MIDDLE step of a row block: the step's product is added to the accumulator; the output block is not touched.
-/
import proofs.«125350_j40604620816471_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the input blocks at `x0`, `x1`, the shared row at `x2`, the output block at `xi` (handed back
    untouched), the accumulator at what the step before left, `xs` — the body runs to the continuation holding the
    inputs and the output block as they were and the accumulator with the pieces `LS` written. -/
noncomputable def kernelRunMid (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i)
    (x0 : Vec F S512x640 .f32) (x1 : Vec F S640x2048 .f32) (x2 : Vec F S1x2048 .f32) (xs : Vec F S512x2048 .f32) :
    { LS : List (View.Piece (Elt F) S512x2048 .f32) //
      ∀ (xi : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__h_kernel i arg2 harg2 arg3 harg3 arg4 harg4 arg5 harg5 arg6 harg6) K } := by
  refine ⟨?_, fun xi E K => ?run⟩
  case run =>
    simp only [cc0__h_kernel_eq_skeleton]; unfold cc0__h_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.R0RunLast.lean ====
/-
  The first kernel's body at the LAST step of a row block: the step's product is added to the accumulator, and tanh of the accumulator plus the shared row is stored into the output block.
-/
import proofs.«125350_j40604620816471_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the input blocks at `x0`, `x1`, the shared row at `x2`, the output block at anything, the
    accumulator at what the step before left, `xs` — the body runs to the continuation holding the inputs as they were,
    the output block with the pieces `LO` written and the accumulator with the pieces `LS` written. -/
noncomputable def kernelRunLast (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__h_kernel i arg2 harg2 arg3 harg3 arg4 harg4 arg5 harg5 arg6 harg6) K } := by
  refine ⟨?_, ?_, fun E K => ?run⟩
  case run =>
    simp only [cc0__h_kernel_eq_skeleton]; unfold cc0__h_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.K.R0Dat.lean ====
/-
  The first kernel region: what the accumulator and the output block hold after every grid point, the proof data of
  the region's pipeline, and the body obligation.

  After point `n` the accumulator holds: at the first step of a row block, the step's product added to the cleared
  accumulator; at every later step, the step's product added to what the step before left. The output block is stored
  at the last step of a row block only (tanh of the accumulator plus the shared row) and is idle elsewhere.
-/
import proofs.«125350_j40604620816471_1_alg».proof.Proof.K.R0RunFirst
import proofs.«125350_j40604620816471_1_alg».proof.Proof.K.R0RunMid
import proofs.«125350_j40604620816471_1_alg».proof.Proof.K.R0RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

/-- The first step's pieces for the accumulator cover it. -/
theorem coverFirst (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i)
    (x0 : Vec F S512x640 .f32) (x1 : Vec F S640x2048 .f32) (x2 : Vec F S1x2048 .f32) (y : S512x2048.Idx) :
    ∃ pc ∈ (kernelRunFirst c i arg2 harg2 arg3 harg3 arg4 harg4 arg5 harg5 arg6 harg6 hc0 hc1 x0 x1 x2).1, y ∈ pc.1.set :=
  View.cover_of_tiledL (kernelRunFirst c i arg2 harg2 arg3 harg3 arg4 harg4 arg5 harg5 arg6 harg6 hc0 hc1 x0 x1 x2).1 S512x2048.size (by sl_kernel_rfl) y

/-- What the first step of a row block leaves in the accumulator. -/
def accFirst (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i)
    (x0 : Vec F S512x640 .f32) (x1 : Vec F S640x2048 .f32) (x2 : Vec F S1x2048 .f32) : Vec F S512x2048 .f32 :=
  accV.read (Elt F) (accV.writes (Elt F) accV.junk (kernelRunFirst c i arg2 harg2 arg3 harg3 arg4 harg4 arg5 harg5 arg6 harg6 hc0 hc1 x0 x1 x2).1)

/-- A middle step's pieces for the accumulator cover it. -/
theorem coverMid (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i)
    (x0 : Vec F S512x640 .f32) (x1 : Vec F S640x2048 .f32) (x2 : Vec F S1x2048 .f32) (xs : Vec F S512x2048 .f32) (y : S512x2048.Idx) :
    ∃ pc ∈ (kernelRunMid c i arg2 harg2 arg3 harg3 arg4 harg4 arg5 harg5 arg6 harg6 hc0 hc1 x0 x1 x2 xs).1, y ∈ pc.1.set :=
  View.cover_of_tiledL (kernelRunMid c i arg2 harg2 arg3 harg3 arg4 harg4 arg5 harg5 arg6 harg6 hc0 hc1 x0 x1 x2 xs).1 S512x2048.size (by sl_kernel_rfl) y

/-- What a middle step leaves in the accumulator, over what the step before left (`xs`). -/
def accMid (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i)
    (x0 : Vec F S512x640 .f32) (x1 : Vec F S640x2048 .f32) (x2 : Vec F S1x2048 .f32) (xs : Vec F S512x2048 .f32) : Vec F S512x2048 .f32 :=
  accV.read (Elt F) (accV.writes (Elt F) accV.junk (kernelRunMid c i arg2 harg2 arg3 harg3 arg4 harg4 arg5 harg5 arg6 harg6 hc0 hc1 x0 x1 x2 xs).1)

/-- The last step's pieces for the output block cover it. -/
theorem coverLastOut (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) (y : S512x2048.Idx) :
    ∃ pc ∈ (kernelRunLast c i arg2 harg2 arg3 harg3 arg4 harg4 arg5 harg5 arg6 harg6 hc0 hc1 x0 x1 x2 xs).1, y ∈ pc.1.set :=
  View.cover_of_tiledL (kernelRunLast c i arg2 harg2 arg3 harg3 arg4 harg4 arg5 harg5 arg6 harg6 hc0 hc1 x0 x1 x2 xs).1 S512x2048.size (by sl_kernel_rfl) y

/-- What the last step of a row block leaves in the output block. -/
def outLast (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) : Vec F S512x2048 .f32 :=
  outV.read (Elt F) (outV.writes (Elt F) outV.junk (kernelRunLast c i arg2 harg2 arg3 harg3 arg4 harg4 arg5 harg5 arg6 harg6 hc0 hc1 x0 x1 x2 xs).1)

/-- The last step's pieces for the accumulator cover it. -/
theorem coverLastAcc (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) (y : S512x2048.Idx) :
    ∃ pc ∈ (kernelRunLast c i arg2 harg2 arg3 harg3 arg4 harg4 arg5 harg5 arg6 harg6 hc0 hc1 x0 x1 x2 xs).2.1, y ∈ pc.1.set :=
  View.cover_of_tiledL (kernelRunLast c i arg2 harg2 arg3 harg3 arg4 harg4 arg5 harg5 arg6 harg6 hc0 hc1 x0 x1 x2 xs).2.1 S512x2048.size (by sl_kernel_rfl) y

/-- What the last step of a row block leaves in the accumulator. -/
def accLast (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) : Vec F S512x2048 .f32 :=
  accV.read (Elt F) (accV.writes (Elt F) accV.junk (kernelRunLast c i arg2 harg2 arg3 harg3 arg4 harg4 arg5 harg5 arg6 harg6 hc0 hc1 x0 x1 x2 xs).2.1)

/-- An idle output block's placeholder: nothing consults it (the block is neither written back nor read). -/
def outIdle : Vec F S512x2048 .f32 := outV.read (Elt F) outV.junk

/-! ## What the output block and the accumulator hold after each point -/

/-- After the body at position `n`: (the output block's staging buffer, the accumulator). By recursion on the point:
    the case its position in the row block selects, run on the point's blocks, a later step over what the step before
    left in the accumulator. -/
def outsAt0 (c : Dev nD) : (n : ℕ) → n < cfg0.N → Vec F S512x2048 .f32 × Vec F S512x2048 .f32
  | 0, hn => (outIdle, accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM (Memref.isWhole_whole _)
      ((isFirst_iff ⟨0, hn⟩).mpr (Nat.zero_mod _)) (fun h => (fun h => by (try dsimp only at h); omega) ((isLast_iff ⟨0, hn⟩).mp h))
      (iblk0 V c 0 ⟨0, hn⟩) (iblk0 V c 1 ⟨0, hn⟩) (iblk0 V c 2 ⟨0, hn⟩))
  | n + 1, hn =>
    if h0 : (n + 1) % 50 = 0 then
      if h1 : (n + 1) % 50 = 49 then False.elim (by omega)
      else
        (outIdle, accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _)
          ((isFirst_iff ⟨n + 1, hn⟩).mpr h0) (fun h => h1 ((isLast_iff ⟨n + 1, hn⟩).mp h))
          (iblk0 V c 0 ⟨n + 1, hn⟩) (iblk0 V c 1 ⟨n + 1, hn⟩) (iblk0 V c 2 ⟨n + 1, hn⟩))
    else
      if h1 : (n + 1) % 50 = 49 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _)
          (fun h => h0 ((isFirst_iff ⟨n + 1, hn⟩).mp h)) ((isLast_iff ⟨n + 1, hn⟩).mpr h1)
          (iblk0 V c 0 ⟨n + 1, hn⟩) (iblk0 V c 1 ⟨n + 1, hn⟩) (iblk0 V c 2 ⟨n + 1, hn⟩) (outsAt0 c n (Nat.lt_of_succ_lt hn)).2,
         accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _)
          (fun h => h0 ((isFirst_iff ⟨n + 1, hn⟩).mp h)) ((isLast_iff ⟨n + 1, hn⟩).mpr h1)
          (iblk0 V c 0 ⟨n + 1, hn⟩) (iblk0 V c 1 ⟨n + 1, hn⟩) (iblk0 V c 2 ⟨n + 1, hn⟩) (outsAt0 c n (Nat.lt_of_succ_lt hn)).2)
      else
        (outIdle, accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _)
          (fun h => h0 ((isFirst_iff ⟨n + 1, hn⟩).mp h)) (fun h => h1 ((isLast_iff ⟨n + 1, hn⟩).mp h))
          (iblk0 V c 0 ⟨n + 1, hn⟩) (iblk0 V c 1 ⟨n + 1, hn⟩) (iblk0 V c 2 ⟨n + 1, hn⟩) (outsAt0 c n (Nat.lt_of_succ_lt hn)).2)

/-- `outsAt0` at the first step of a row block. -/
theorem outsAt0_first (c : Dev nD) (t : Fin cfg0.N) (h0 : t.val % 50 = 0) (h1 : ¬t.val % 50 = 49) :
    outsAt0 V c t.val t.isLt = (outIdle, accFirst c (grid0.coords t) (ms0_0 t) (hs0_0 t) (ms0_1 t) (hs0_1 t) (ms0_2 t) (hs0_2 t) (ms0_3 t) (hs0_3 t) accM (Memref.isWhole_whole _)
      ((isFirst_iff t).mpr h0) (fun h => h1 ((isLast_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle step: over what the step before left. -/
theorem outsAt0_mid (c : Dev nD) (t : Fin cfg0.N) (h0 : ¬t.val % 50 = 0) (h1 : ¬t.val % 50 = 49) :
    outsAt0 V c t.val t.isLt = (outIdle, accMid c (grid0.coords t) (ms0_0 t) (hs0_0 t) (ms0_1 t) (hs0_1 t) (ms0_2 t) (hs0_2 t) (ms0_3 t) (hs0_3 t) accM (Memref.isWhole_whole _)
      (fun h => h0 ((isFirst_iff t).mp h)) (fun h => h1 ((isLast_iff t).mp h)) (iblk0 V c 0 t) (iblk0 V c 1 t) (iblk0 V c 2 t)
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last step of a row block: over what the step before left. -/
theorem outsAt0_last (c : Dev nD) (t : Fin cfg0.N) (h0 : ¬t.val % 50 = 0) (h1 : t.val % 50 = 49) :
    outsAt0 V c t.val t.isLt = (outLast c (grid0.coords t) (ms0_0 t) (hs0_0 t) (ms0_1 t) (hs0_1 t) (ms0_2 t) (hs0_2 t) (ms0_3 t) (hs0_3 t) accM (Memref.isWhole_whole _)
      (fun h => h0 ((isFirst_iff t).mp h)) ((isLast_iff t).mpr h1) (iblk0 V c 0 t) (iblk0 V c 1 t) (iblk0 V c 2 t)
      (outsAt0 V c (t.val - 1) (Nat.lt_of_le_of_lt (Nat.sub_le _ _) t.isLt)).2,
     accLast c (grid0.coords t) (ms0_0 t) (hs0_0 t) (ms0_1 t) (hs0_1 t) (ms0_2 t) (hs0_2 t) (ms0_3 t) (hs0_3 t) accM (Memref.isWhole_whole _)
      (fun h => h0 ((isFirst_iff t).mp h)) ((isLast_iff t).mpr h1) (iblk0 V c 0 t) (iblk0 V c 1 t) (iblk0 V c 2 t)
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point, the invariant of a kernel that keeps nothing (every scoped buffer at
    anything); afterwards the accumulator at what the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ rest0 (F := F) c) ∗ (∃ r, prngReg c r)) := by
  cases n with
  | zero => exact absurd rfl hz
  | succ n => rfl

/-! ## The pipeline's proof data -/

/-- The proof data of the first region's pipeline on core `c`: the arrays as the region finds them; after the body at
    point `t` each input's buffer at its block and the output's at `outsAt0`; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The body at any point, by the case its position in the row block selects. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 400 := lt_of_lt_of_eq t.isLt (show cfg0.N = 400 from N_0)
  by_cases h0 : t.val % 50 = 0
  · by_cases h1 : t.val % 50 = 49
    · exfalso; omega
    · rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [Dat.leavesExact_idle (dat0 V c) 3 t (idle0_3 t (fun h => h1 ((isLast_iff t).mp h))) (noFlush0_3 t (fun h => h1 ((isLast_iff t).mp h)))]
      rw [outsAt0_first V c t h0 h1]
      unfold accFirst; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩⟩
        iapply ((kernelRunFirst c (grid0.coords t) _ _ _ _ _ _ _ _ _ _ ((isFirst_iff t).mpr h0) (fun h => h1 ((isLast_iff t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (coverFirst c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRunFirst c (grid0.coords t) _ _ _ _ _ _ _ _ _ _ ((isFirst_iff t).mpr h0) (fun h => h1 ((isLast_iff t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (coverFirst c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 50 = 49
    · rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [show (dat0 V c).leavesExact 3 t = owns (c : Thread nD τ) (ms0_3 t) fullShare ((dat0 V c).after 3 t) from by
        unfold Dat.leavesExact; rw [live0_3 t ((isLast_iff t).mpr h1)], after0_3]
      rw [outsAt0_last V c t h0 h1]
      unfold outLast accLast; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRunLast c (grid0.coords t) _ _ _ _ _ _ _ _ _ _ (fun h => h0 ((isFirst_iff t).mp h)) ((isLast_iff t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (coverLastAcc c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastOut c _ _ _ _ _ _ _ _ _ _ _ _ _ _ _ _ _)
    · rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [Dat.leavesExact_idle (dat0 V c) 3 t (idle0_3 t (fun h => h1 ((isLast_iff t).mp h))) (noFlush0_3 t (fun h => h1 ((isLast_iff t).mp h)))]
      rw [outsAt0_mid V c t h0 h1]
      unfold accMid; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRunMid c (grid0.coords t) _ _ _ _ _ _ _ _ _ _ (fun h => h0 ((isFirst_iff t).mp h)) (fun h => h1 ((isLast_iff t).mp h)) (iblk0 V c 0 t) (iblk0 V c 1 t) (iblk0 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (coverMid c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the keep-nothing invariant back (the accumulator's contents forgotten). -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 400 := N_0; omega)

end Cert.Kernel.Hand

end
-- ==== Proof.K.R1.lean ====
/-
  The second kernel region (the scores): each grid point multiplies a 512 x 2048 block of the hidden layer by a
  2048 x 640 block of `Why`, adds the bias block to every row and stores the 512 x 640 result block; nothing is kept
  between points.
-/
import proofs.«125350_j40604620816471_1_alg».proof.Proof.Gen.Kernel.Launch
import proofs.«125350_j40604620816471_1_alg».proof.Proof.Gen.Kernel.Skeleton
import proofs.«125350_j40604620816471_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-layer window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The `Why` window's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias window's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves -/

abbrev rH : Rect S512x2048 := Rect.unit (s := S512x2048) ![0, 0] S512x2048.size inb_S512x2048_S512x2048_0_0
abbrev rW : Rect S2048x640 := Rect.unit (s := S2048x640) ![0, 0] S2048x640.size inb_S2048x640_S2048x640_0_0
abbrev rB : Rect S1x640 := Rect.unit (s := S1x640) ![0, 0] S1x640.size inb_S1x640_S1x640_0_0
abbrev rO : Rect S512x640 := Rect.unit (s := S512x640) ![0, 0] S512x640.size inb_S512x640_S512x640_0_0

/-- The output block after the body, from the three input blocks: its one store, over the whole block. -/
def out1_3 (x0 : Vec F S512x2048 .f32) (x1 : Vec F S2048x640 .f32) (x2 : Vec F S1x640 .f32) : Vec F S512x640 .f32 :=
  View.canon [⟨rO, k1_pay1 (View.ld x0 rH) (View.ld x1 rW) (View.ld x2 rB)⟩]

/-- The one store covers the block. -/
theorem cover1_3 (p0 : Vec F S512x640 .f32) (y : S512x640.Idx) :
    ∃ pc ∈ ([⟨rO, p0⟩] : List (View.Piece (Elt F) S512x640 .f32)), y ∈ pc.1.set :=
  View.cover_of_tiled [⟨rO, p0⟩] S512x640.size (by rfl) y

/-! ## The body's triple -/

set_option maxHeartbeats 4000000 in
/-- On whole staging memrefs, the inputs' at `x0`, `x1`, `x2` and the output's at anything, the body runs to the
    continuation holding the inputs' as they were and the output's at `out1_3` of them. -/
theorem sound_kernel1 (c : Dev nD) (E : Set ℕ) (i : grid1.Coords) (arg2 : Memref sig .tc .vmem S512x2048 .f32) (harg2 : arg2.IsWhole) (arg3 : Memref sig .tc .vmem S2048x640 .f32) (harg3 : arg3.IsWhole) (arg4 : Memref sig .tc .vmem S1x640 .f32) (harg4 : arg4.IsWhole) (arg5 : Memref sig .tc .vmem S512x640 .f32) (harg5 : arg5.IsWhole)
    (x0 : Vec F S512x2048 .f32) (x1 : Vec F S2048x640 .f32) (x2 : Vec F S1x640 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__logits_kernel i arg2 harg2 arg3 harg3 arg4 harg4 arg5 harg5) K := by
  simp only [cc1__logits_kernel_eq_skeleton]; unfold cc1__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second region's pipeline on core `c`: the arrays as the region finds them; after the body at
    point `t` each input's buffer at its block and the output's at `out1_3` of the input blocks; the invariant of a kernel
    that keeps nothing; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program's run: the host operations that form the shared row, the first kernel region (the hidden layer),
  the reshape of the bias, the second kernel region (the scores), and the slice that returns the last hidden row —
  composed in order. Between two items every unscoped buffer of the core is held at named contents: the launch memory
  pushed through each host stretch, and through each region by what its pipeline's write-backs leave in its arrays.
  The conclusion reads every unscoped buffer of the final memory at the last of those contents.
-/
import proofs.«125350_j40604620816471_1_alg».proof.Proof.K.R0Dat
import proofs.«125350_j40604620816471_1_alg».proof.Proof.K.R1
import proofs.«125350_j40604620816471_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items -/

/-- Core `c`'s buffers at launch. -/
abbrev W0 : Dev nD → Valuation τ sig (Elt F) := fun c b => m (c, b)
/-- After the first host stretch (the shared row is formed): what the first region is entered with. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch (the bias laid out as one row): what the second region is entered with. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-- After the last host stretch (the last hidden row sliced out): the contents the program ends with. -/
abbrev W5 : Dev nD → Valuation τ sig (Elt F) := fun c => StableHlo.after hostOps2 (W4 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The first region: entered from every unscoped buffer at `W1`, left at `W2`. Its arrays are split out of the
    unscoped buffers and put back at the exit contents; the generator register and the scoped buffers go into the
    region's invariant (which names the accumulator's contents from the first point on) and come back out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m 0 c).Φ 0 := hin0 (E1 m) c
    unfold Pipeline.ΦA at h
    iintro ⟨Hp, -, Hr⟩
    iapply h
    isplitl [Hr]; · iexact Hr
    iexact Hp
  hout c := by
    rw [Pipeline.ownSems0_none]
    have h : (pdats m 0 c).Φ (Fin.last _) ⊢ (Pipeline.ΦA spec0 c : sProp 𝕄) := hout0 (E1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`; it keeps nothing between points. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program IS the run of those segments. -/
theorem main_run (c : Dev nD) : main (F := F) c = Pipeline.Seg.run (segs m) := (main_chain c).trans (by chain_rfl)

set_option backward.isDefEq.respectTransparency.types false in
/-- From any memory with zero counters every weakly fair execution of the program on the TensorCores terminates,
    nothing faulting, and the final memory holds every unscoped buffer at the contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.K.Frame.lean ====
/-
  The argument arrays end as launched: no host operation writes one, the first region's write-backs touch only the
  hidden layer's array and the second's only the scores' array.
-/
import proofs.«125350_j40604620816471_1_alg».proof.Proof.K.Run
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (m : (ℓ : Loc nD τ sig) → Buf (Elt F) ℓ) (ρ : Dev nD → PrngReg)

/-- The first region changes only the hidden layer's array. -/
theorem W2_keep (c : Dev nD) (b : Ref sig .tc) (hb : b ≠ main_v3) :
    W2 m c (Proc.devRef .tc b) = W1 m c (Proc.devRef .tc b) := by
  by_cases h : ∃ w, Pipeline.arrRef spec0 w = b
  · obtain ⟨w, rfl⟩ := h
    refine (W2_arr m c w).trans ?_
    fin_cases w
    · exact ((dat0 (E1 m) c).arrAt_in 0 rfl _).trans (A_eq0 (E1 m) c 0)
    · exact ((dat0 (E1 m) c).arrAt_in 1 rfl _).trans (A_eq0 (E1 m) c 1)
    · exact ((dat0 (E1 m) c).arrAt_in 2 rfl _).trans (A_eq0 (E1 m) c 2)
    · exact absurd rfl hb
  · exact W2_of_ne m c b fun w e => h ⟨w, e⟩

/-- The second region changes only the scores' array. -/
theorem W4_keep (c : Dev nD) (b : Ref sig .tc) (hb : b ≠ main_v5) :
    W4 m c (Proc.devRef .tc b) = W3 m c (Proc.devRef .tc b) := by
  by_cases h : ∃ w, Pipeline.arrRef spec1 w = b
  · obtain ⟨w, rfl⟩ := h
    refine (W4_arr m c w).trans ?_
    fin_cases w
    · exact ((dat1 (E3 m) c).arrAt_in 0 rfl _).trans (A_eq1 (E3 m) c 0)
    · exact ((dat1 (E3 m) c).arrAt_in 1 rfl _).trans (A_eq1 (E3 m) c 1)
    · exact ((dat1 (E3 m) c).arrAt_in 2 rfl _).trans (A_eq1 (E3 m) c 2)
    · exact absurd rfl hb
  · exact W4_of_ne m c b fun w e => h ⟨w, e⟩

/-- A buffer that no host stretch writes and that is neither region's output ends as launched. -/
theorem W5_keep (c : Dev nD) (b : Ref sig .tc) (h0 : b ∉ hostOps0_W) (h1 : b ∉ hostOps1_W) (h2 : b ∉ hostOps2_W)
    (h3 : b ≠ main_v3) (h5 : b ≠ main_v5) : W5 m c (Proc.devRef .tc b) = m ((c : Thread nD τ).loc b) :=
  (StableHlo.after_of_writes_sub hostOps2 _ hostOps2_writes h2).trans <|
    (W4_keep m c b h5).trans <| (StableHlo.after_of_writes_sub hostOps1 _ hostOps1_writes h1).trans <|
    (W2_keep m c b h3).trans <| (StableHlo.after_of_writes_sub hostOps0 _ hostOps0_writes h0).trans rfl

/-- The frame: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_keep m c main_arg0 (by decide) (by decide) (by decide) (by decide) (by decide)),
     (h c _ (mem_uc main_arg1 (by decide))).trans (W5_keep m c main_arg1 (by decide) (by decide) (by decide) (by decide) (by decide)),
     (h c _ (mem_uc main_arg2 (by decide))).trans (W5_keep m c main_arg2 (by decide) (by decide) (by decide) (by decide) (by decide)),
     (h c _ (mem_uc main_arg3 (by decide))).trans (W5_keep m c main_arg3 (by decide) (by decide) (by decide) (by decide) (by decide)),
     (h c _ (mem_uc main_arg4 (by decide))).trans (W5_keep m c main_arg4 (by decide) (by decide) (by decide) (by decide) (by decide)),
     (h c _ (mem_uc main_arg5 (by decide))).trans (W5_keep m c main_arg5 (by decide) (by decide) (by decide) (by decide) (by decide)),
     (h c _ (mem_uc main_arg6 (by decide))).trans (W5_keep m c main_arg6 (by decide) (by decide) (by decide) (by decide) (by decide))⟩)
    (run_all m ρ)

end Frame

end Cert.Kernel.Hand

end
-- ==== Proof.KI.R0Base.lean ====
/-
  The first kernel region (the hidden layer), what its three control cases share.

  The grid is 8 row blocks by 50 steps along the contracted axis, visited row block by row block. Within a row block the
  kernel keeps a 512 x 2048 accumulator in a scratch buffer: step 0 clears it, every step adds the product of the
  step's 512 x 640 block of `x` with the step's 640 x 2048 block of `Wxh`, and step 49 writes
  `tanh (accumulator + hc)` into the output block. So a point is in one of three cases: the first step of a row block
  (clear, add), a middle step (add), the last step (add, write the output).
-/
import proofs.«125350_j40604620816471_1_alg».proof.Proof.Gen.KernelIdeal.Launch
import proofs.«125350_j40604620816471_1_alg».proof.Proof.Gen.KernelIdeal.Skeleton
import proofs.«125350_j40604620816471_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered: every statement here is over this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The `Wxh` window's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The shared row's staging buffer (fetched once, at the first point) holds its one block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the grid -/

/-- "This is the first step of a row block": the condition of the body's first `scf.if`. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 50 = 0 :=
  (by decide +kernel : ∀ t : Fin grid0.N, isFirst (grid0.coords t) ↔ t.val % 50 = 0)

/-- "This is the last step of a row block": the condition of the body's second `scf.if`. -/
abbrev isLast (i : grid0.Coords) : Prop := k0_cond2 i = 1#1
theorem isLast_iff : ∀ t : Fin cfg0.N, isLast (grid0.coords t) ↔ t.val % 50 = 49 :=
  (by decide +kernel : ∀ t : Fin grid0.N, isLast (grid0.coords t) ↔ t.val % 50 = 49)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Off the last step of a row block the output window is idle (nothing is stored into it) and is not written back. -/
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
/-- On the last step it is live. -/
theorem live0_3 : ∀ t : Fin cfg0.N, isLast (grid0.coords t) → cfg0.idle 3 (grid0.coords t) = false := by decide +kernel

/-! ## The memrefs the body is called with -/

abbrev ms0_0 (t : Fin cfg0.N) : Memref sig .tc .vmem S512x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev accM : Memref sig .tc .vmem S512x2048 .f32 := Memref.whole cc0_scratch0
/-- The views through which the accumulator's and the output block's contents are stated. -/
abbrev accV : View sig .tc .vmem S512x2048 .f32 := accM.view
abbrev outV : View sig .tc .vmem S512x2048 .f32 := (Memref.whole cc0_stg3_0 : Memref sig .tc .vmem S512x2048 .f32).view

/-- The region invariant of a kernel that keeps nothing, with the accumulator spelt out: the accumulator at some
    contents, the second region's staging buffers at some contents (`rest0`), the generator register at some state. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA0_eq (c : Dev nD) :
    (Pipeline.ΦA spec0 c : sProp 𝕄)
      = iprop(iprop((∃ d, owns (c : Thread nD τ) accM fullShare d) ∗ rest0 (F := F) c) ∗ (∃ r, prngReg c r)) := by
  unfold Pipeline.ΦA rest0; rw [scopedRest0_eq]; simp only [accM, owns_whole]; try rfl

end Cert.KernelIdeal.Hand

end
-- ==== Proof.KI.R0RunFirst.lean ====
/-
  The first kernel's body at the FIRST step of a row block: the accumulator is cleared, then the step's product is added to it; the output block is not touched.
-/
import proofs.«125350_j40604620816471_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents `x0`, `x1`, the shared row at `x2`, the output block at
    `xi` (handed back untouched), the accumulator at anything — the body runs to the continuation holding the inputs and
    the output block as they were and the accumulator with the pieces `LS` written: the pieces are found by the run. -/
noncomputable def kernelRunFirst (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i)
    (x0 : Vec F S512x640 .f32) (x1 : Vec F S640x2048 .f32) (x2 : Vec F S1x2048 .f32) :
    { LS : List (View.Piece (Elt F) S512x2048 .f32) //
      ∀ (xi : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__h_kernel i arg2 harg2 arg3 harg3 arg4 harg4 arg5 harg5 arg6 harg6) K } := by
  refine ⟨?_, fun xi E K => ?run⟩
  case run =>
    simp only [cc0__h_kernel_eq_skeleton]; unfold cc0__h_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R0RunMid.lean ====
/-
  The first kernel's body at a MIDDLE step of a row block: the step's product is added to the accumulator; the output block is not touched.
-/
import proofs.«125350_j40604620816471_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the input blocks at `x0`, `x1`, the shared row at `x2`, the output block at `xi` (handed back
    untouched), the accumulator at what the step before left, `xs` — the body runs to the continuation holding the
    inputs and the output block as they were and the accumulator with the pieces `LS` written. -/
noncomputable def kernelRunMid (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i)
    (x0 : Vec F S512x640 .f32) (x1 : Vec F S640x2048 .f32) (x2 : Vec F S1x2048 .f32) (xs : Vec F S512x2048 .f32) :
    { LS : List (View.Piece (Elt F) S512x2048 .f32) //
      ∀ (xi : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__h_kernel i arg2 harg2 arg3 harg3 arg4 harg4 arg5 harg5 arg6 harg6) K } := by
  refine ⟨?_, fun xi E K => ?run⟩
  case run =>
    simp only [cc0__h_kernel_eq_skeleton]; unfold cc0__h_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R0RunLast.lean ====
/-
  The first kernel's body at the LAST step of a row block: the step's product is added to the accumulator, and tanh of the accumulator plus the shared row is stored into the output block.
-/
import proofs.«125350_j40604620816471_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the input blocks at `x0`, `x1`, the shared row at `x2`, the output block at anything, the
    accumulator at what the step before left, `xs` — the body runs to the continuation holding the inputs as they were,
    the output block with the pieces `LO` written and the accumulator with the pieces `LS` written. -/
noncomputable def kernelRunLast (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__h_kernel i arg2 harg2 arg3 harg3 arg4 harg4 arg5 harg5 arg6 harg6) K } := by
  refine ⟨?_, ?_, fun E K => ?run⟩
  case run =>
    simp only [cc0__h_kernel_eq_skeleton]; unfold cc0__h_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.KI.R0Dat.lean ====
/-
  The first kernel region: what the accumulator and the output block hold after every grid point, the proof data of
  the region's pipeline, and the body obligation.

  After point `n` the accumulator holds: at the first step of a row block, the step's product added to the cleared
  accumulator; at every later step, the step's product added to what the step before left. The output block is stored
  at the last step of a row block only (tanh of the accumulator plus the shared row) and is idle elsewhere.
-/
import proofs.«125350_j40604620816471_1_alg».proof.Proof.KI.R0RunFirst
import proofs.«125350_j40604620816471_1_alg».proof.Proof.KI.R0RunMid
import proofs.«125350_j40604620816471_1_alg».proof.Proof.KI.R0RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

/-- The first step's pieces for the accumulator cover it. -/
theorem coverFirst (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i)
    (x0 : Vec F S512x640 .f32) (x1 : Vec F S640x2048 .f32) (x2 : Vec F S1x2048 .f32) (y : S512x2048.Idx) :
    ∃ pc ∈ (kernelRunFirst c i arg2 harg2 arg3 harg3 arg4 harg4 arg5 harg5 arg6 harg6 hc0 hc1 x0 x1 x2).1, y ∈ pc.1.set :=
  View.cover_of_tiledL (kernelRunFirst c i arg2 harg2 arg3 harg3 arg4 harg4 arg5 harg5 arg6 harg6 hc0 hc1 x0 x1 x2).1 S512x2048.size (by sl_kernel_rfl) y

/-- What the first step of a row block leaves in the accumulator. -/
def accFirst (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i)
    (x0 : Vec F S512x640 .f32) (x1 : Vec F S640x2048 .f32) (x2 : Vec F S1x2048 .f32) : Vec F S512x2048 .f32 :=
  accV.read (Elt F) (accV.writes (Elt F) accV.junk (kernelRunFirst c i arg2 harg2 arg3 harg3 arg4 harg4 arg5 harg5 arg6 harg6 hc0 hc1 x0 x1 x2).1)

/-- A middle step's pieces for the accumulator cover it. -/
theorem coverMid (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i)
    (x0 : Vec F S512x640 .f32) (x1 : Vec F S640x2048 .f32) (x2 : Vec F S1x2048 .f32) (xs : Vec F S512x2048 .f32) (y : S512x2048.Idx) :
    ∃ pc ∈ (kernelRunMid c i arg2 harg2 arg3 harg3 arg4 harg4 arg5 harg5 arg6 harg6 hc0 hc1 x0 x1 x2 xs).1, y ∈ pc.1.set :=
  View.cover_of_tiledL (kernelRunMid c i arg2 harg2 arg3 harg3 arg4 harg4 arg5 harg5 arg6 harg6 hc0 hc1 x0 x1 x2 xs).1 S512x2048.size (by sl_kernel_rfl) y

/-- What a middle step leaves in the accumulator, over what the step before left (`xs`). -/
def accMid (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i)
    (x0 : Vec F S512x640 .f32) (x1 : Vec F S640x2048 .f32) (x2 : Vec F S1x2048 .f32) (xs : Vec F S512x2048 .f32) : Vec F S512x2048 .f32 :=
  accV.read (Elt F) (accV.writes (Elt F) accV.junk (kernelRunMid c i arg2 harg2 arg3 harg3 arg4 harg4 arg5 harg5 arg6 harg6 hc0 hc1 x0 x1 x2 xs).1)

/-- The last step's pieces for the output block cover it. -/
theorem coverLastOut (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) (y : S512x2048.Idx) :
    ∃ pc ∈ (kernelRunLast c i arg2 harg2 arg3 harg3 arg4 harg4 arg5 harg5 arg6 harg6 hc0 hc1 x0 x1 x2 xs).1, y ∈ pc.1.set :=
  View.cover_of_tiledL (kernelRunLast c i arg2 harg2 arg3 harg3 arg4 harg4 arg5 harg5 arg6 harg6 hc0 hc1 x0 x1 x2 xs).1 S512x2048.size (by sl_kernel_rfl) y

/-- What the last step of a row block leaves in the output block. -/
def outLast (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) : Vec F S512x2048 .f32 :=
  outV.read (Elt F) (outV.writes (Elt F) outV.junk (kernelRunLast c i arg2 harg2 arg3 harg3 arg4 harg4 arg5 harg5 arg6 harg6 hc0 hc1 x0 x1 x2 xs).1)

/-- The last step's pieces for the accumulator cover it. -/
theorem coverLastAcc (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) (y : S512x2048.Idx) :
    ∃ pc ∈ (kernelRunLast c i arg2 harg2 arg3 harg3 arg4 harg4 arg5 harg5 arg6 harg6 hc0 hc1 x0 x1 x2 xs).2.1, y ∈ pc.1.set :=
  View.cover_of_tiledL (kernelRunLast c i arg2 harg2 arg3 harg3 arg4 harg4 arg5 harg5 arg6 harg6 hc0 hc1 x0 x1 x2 xs).2.1 S512x2048.size (by sl_kernel_rfl) y

/-- What the last step of a row block leaves in the accumulator. -/
def accLast (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) : Vec F S512x2048 .f32 :=
  accV.read (Elt F) (accV.writes (Elt F) accV.junk (kernelRunLast c i arg2 harg2 arg3 harg3 arg4 harg4 arg5 harg5 arg6 harg6 hc0 hc1 x0 x1 x2 xs).2.1)

/-- An idle output block's placeholder: nothing consults it (the block is neither written back nor read). -/
def outIdle : Vec F S512x2048 .f32 := outV.read (Elt F) outV.junk

/-! ## What the output block and the accumulator hold after each point -/

/-- After the body at position `n`: (the output block's staging buffer, the accumulator). By recursion on the point:
    the case its position in the row block selects, run on the point's blocks, a later step over what the step before
    left in the accumulator. -/
def outsAt0 (c : Dev nD) : (n : ℕ) → n < cfg0.N → Vec F S512x2048 .f32 × Vec F S512x2048 .f32
  | 0, hn => (outIdle, accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM (Memref.isWhole_whole _)
      ((isFirst_iff ⟨0, hn⟩).mpr (Nat.zero_mod _)) (fun h => (fun h => by (try dsimp only at h); omega) ((isLast_iff ⟨0, hn⟩).mp h))
      (iblk0 V c 0 ⟨0, hn⟩) (iblk0 V c 1 ⟨0, hn⟩) (iblk0 V c 2 ⟨0, hn⟩))
  | n + 1, hn =>
    if h0 : (n + 1) % 50 = 0 then
      if h1 : (n + 1) % 50 = 49 then False.elim (by omega)
      else
        (outIdle, accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _)
          ((isFirst_iff ⟨n + 1, hn⟩).mpr h0) (fun h => h1 ((isLast_iff ⟨n + 1, hn⟩).mp h))
          (iblk0 V c 0 ⟨n + 1, hn⟩) (iblk0 V c 1 ⟨n + 1, hn⟩) (iblk0 V c 2 ⟨n + 1, hn⟩))
    else
      if h1 : (n + 1) % 50 = 49 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _)
          (fun h => h0 ((isFirst_iff ⟨n + 1, hn⟩).mp h)) ((isLast_iff ⟨n + 1, hn⟩).mpr h1)
          (iblk0 V c 0 ⟨n + 1, hn⟩) (iblk0 V c 1 ⟨n + 1, hn⟩) (iblk0 V c 2 ⟨n + 1, hn⟩) (outsAt0 c n (Nat.lt_of_succ_lt hn)).2,
         accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _)
          (fun h => h0 ((isFirst_iff ⟨n + 1, hn⟩).mp h)) ((isLast_iff ⟨n + 1, hn⟩).mpr h1)
          (iblk0 V c 0 ⟨n + 1, hn⟩) (iblk0 V c 1 ⟨n + 1, hn⟩) (iblk0 V c 2 ⟨n + 1, hn⟩) (outsAt0 c n (Nat.lt_of_succ_lt hn)).2)
      else
        (outIdle, accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _)
          (fun h => h0 ((isFirst_iff ⟨n + 1, hn⟩).mp h)) (fun h => h1 ((isLast_iff ⟨n + 1, hn⟩).mp h))
          (iblk0 V c 0 ⟨n + 1, hn⟩) (iblk0 V c 1 ⟨n + 1, hn⟩) (iblk0 V c 2 ⟨n + 1, hn⟩) (outsAt0 c n (Nat.lt_of_succ_lt hn)).2)

/-- `outsAt0` at the first step of a row block. -/
theorem outsAt0_first (c : Dev nD) (t : Fin cfg0.N) (h0 : t.val % 50 = 0) (h1 : ¬t.val % 50 = 49) :
    outsAt0 V c t.val t.isLt = (outIdle, accFirst c (grid0.coords t) (ms0_0 t) (hs0_0 t) (ms0_1 t) (hs0_1 t) (ms0_2 t) (hs0_2 t) (ms0_3 t) (hs0_3 t) accM (Memref.isWhole_whole _)
      ((isFirst_iff t).mpr h0) (fun h => h1 ((isLast_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle step: over what the step before left. -/
theorem outsAt0_mid (c : Dev nD) (t : Fin cfg0.N) (h0 : ¬t.val % 50 = 0) (h1 : ¬t.val % 50 = 49) :
    outsAt0 V c t.val t.isLt = (outIdle, accMid c (grid0.coords t) (ms0_0 t) (hs0_0 t) (ms0_1 t) (hs0_1 t) (ms0_2 t) (hs0_2 t) (ms0_3 t) (hs0_3 t) accM (Memref.isWhole_whole _)
      (fun h => h0 ((isFirst_iff t).mp h)) (fun h => h1 ((isLast_iff t).mp h)) (iblk0 V c 0 t) (iblk0 V c 1 t) (iblk0 V c 2 t)
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last step of a row block: over what the step before left. -/
theorem outsAt0_last (c : Dev nD) (t : Fin cfg0.N) (h0 : ¬t.val % 50 = 0) (h1 : t.val % 50 = 49) :
    outsAt0 V c t.val t.isLt = (outLast c (grid0.coords t) (ms0_0 t) (hs0_0 t) (ms0_1 t) (hs0_1 t) (ms0_2 t) (hs0_2 t) (ms0_3 t) (hs0_3 t) accM (Memref.isWhole_whole _)
      (fun h => h0 ((isFirst_iff t).mp h)) ((isLast_iff t).mpr h1) (iblk0 V c 0 t) (iblk0 V c 1 t) (iblk0 V c 2 t)
      (outsAt0 V c (t.val - 1) (Nat.lt_of_le_of_lt (Nat.sub_le _ _) t.isLt)).2,
     accLast c (grid0.coords t) (ms0_0 t) (hs0_0 t) (ms0_1 t) (hs0_1 t) (ms0_2 t) (hs0_2 t) (ms0_3 t) (hs0_3 t) accM (Memref.isWhole_whole _)
      (fun h => h0 ((isFirst_iff t).mp h)) ((isLast_iff t).mpr h1) (iblk0 V c 0 t) (iblk0 V c 1 t) (iblk0 V c 2 t)
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point, the invariant of a kernel that keeps nothing (every scoped buffer at
    anything); afterwards the accumulator at what the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ rest0 (F := F) c) ∗ (∃ r, prngReg c r)) := by
  cases n with
  | zero => exact absurd rfl hz
  | succ n => rfl

/-! ## The pipeline's proof data -/

/-- The proof data of the first region's pipeline on core `c`: the arrays as the region finds them; after the body at
    point `t` each input's buffer at its block and the output's at `outsAt0`; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The body at any point, by the case its position in the row block selects. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 400 := lt_of_lt_of_eq t.isLt (show cfg0.N = 400 from N_0)
  by_cases h0 : t.val % 50 = 0
  · by_cases h1 : t.val % 50 = 49
    · exfalso; omega
    · rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [Dat.leavesExact_idle (dat0 V c) 3 t (idle0_3 t (fun h => h1 ((isLast_iff t).mp h))) (noFlush0_3 t (fun h => h1 ((isLast_iff t).mp h)))]
      rw [outsAt0_first V c t h0 h1]
      unfold accFirst; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩⟩
        iapply ((kernelRunFirst c (grid0.coords t) _ _ _ _ _ _ _ _ _ _ ((isFirst_iff t).mpr h0) (fun h => h1 ((isLast_iff t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (coverFirst c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRunFirst c (grid0.coords t) _ _ _ _ _ _ _ _ _ _ ((isFirst_iff t).mpr h0) (fun h => h1 ((isLast_iff t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (coverFirst c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 50 = 49
    · rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [show (dat0 V c).leavesExact 3 t = owns (c : Thread nD τ) (ms0_3 t) fullShare ((dat0 V c).after 3 t) from by
        unfold Dat.leavesExact; rw [live0_3 t ((isLast_iff t).mpr h1)], after0_3]
      rw [outsAt0_last V c t h0 h1]
      unfold outLast accLast; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRunLast c (grid0.coords t) _ _ _ _ _ _ _ _ _ _ (fun h => h0 ((isFirst_iff t).mp h)) ((isLast_iff t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (coverLastAcc c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastOut c _ _ _ _ _ _ _ _ _ _ _ _ _ _ _ _ _)
    · rw [show (dat0 V c).leavesExact 0 t = owns (c : Thread nD τ) (ms0_0 t) fullShare ((dat0 V c).after 0 t) from by
        unfold Dat.leavesExact; rw [live0_0 t], after0_0]
      rw [show (dat0 V c).leavesExact 1 t = owns (c : Thread nD τ) (ms0_1 t) fullShare ((dat0 V c).after 1 t) from by
        unfold Dat.leavesExact; rw [live0_1 t], after0_1]
      rw [show (dat0 V c).leavesExact 2 t = owns (c : Thread nD τ) (ms0_2 t) fullShare ((dat0 V c).after 2 t) from by
        unfold Dat.leavesExact; rw [live0_2 t], after0_2]
      rw [Dat.leavesExact_idle (dat0 V c) 3 t (idle0_3 t (fun h => h1 ((isLast_iff t).mp h))) (noFlush0_3 t (fun h => h1 ((isLast_iff t).mp h)))]
      rw [outsAt0_mid V c t h0 h1]
      unfold accMid; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩⟩
        iapply ((kernelRunMid c (grid0.coords t) _ _ _ _ _ _ _ _ _ _ (fun h => h0 ((isFirst_iff t).mp h)) (fun h => h1 ((isLast_iff t).mp h)) (iblk0 V c 0 t) (iblk0 V c 1 t) (iblk0 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (coverMid c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the keep-nothing invariant back (the accumulator's contents forgotten). -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 400 := N_0; omega)

end Cert.KernelIdeal.Hand

end
-- ==== Proof.KI.R1.lean ====
/-
  The second kernel region (the scores): each grid point multiplies a 512 x 2048 block of the hidden layer by a
  2048 x 640 block of `Why`, adds the bias block to every row and stores the 512 x 640 result block; nothing is kept
  between points.
-/
import proofs.«125350_j40604620816471_1_alg».proof.Proof.Gen.KernelIdeal.Launch
import proofs.«125350_j40604620816471_1_alg».proof.Proof.Gen.KernelIdeal.Skeleton
import proofs.«125350_j40604620816471_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-layer window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The `Why` window's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias window's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves -/

abbrev rH : Rect S512x2048 := Rect.unit (s := S512x2048) ![0, 0] S512x2048.size inb_S512x2048_S512x2048_0_0
abbrev rW : Rect S2048x640 := Rect.unit (s := S2048x640) ![0, 0] S2048x640.size inb_S2048x640_S2048x640_0_0
abbrev rB : Rect S1x640 := Rect.unit (s := S1x640) ![0, 0] S1x640.size inb_S1x640_S1x640_0_0
abbrev rO : Rect S512x640 := Rect.unit (s := S512x640) ![0, 0] S512x640.size inb_S512x640_S512x640_0_0

/-- The output block after the body, from the three input blocks: its one store, over the whole block. -/
def out1_3 (x0 : Vec F S512x2048 .f32) (x1 : Vec F S2048x640 .f32) (x2 : Vec F S1x640 .f32) : Vec F S512x640 .f32 :=
  View.canon [⟨rO, k1_pay1 (View.ld x0 rH) (View.ld x1 rW) (View.ld x2 rB)⟩]

/-- The one store covers the block. -/
theorem cover1_3 (p0 : Vec F S512x640 .f32) (y : S512x640.Idx) :
    ∃ pc ∈ ([⟨rO, p0⟩] : List (View.Piece (Elt F) S512x640 .f32)), y ∈ pc.1.set :=
  View.cover_of_tiled [⟨rO, p0⟩] S512x640.size (by rfl) y

/-! ## The body's triple -/

set_option maxHeartbeats 4000000 in
/-- On whole staging memrefs, the inputs' at `x0`, `x1`, `x2` and the output's at anything, the body runs to the
    continuation holding the inputs' as they were and the output's at `out1_3` of them. -/
theorem sound_kernel1 (c : Dev nD) (E : Set ℕ) (i : grid1.Coords) (arg2 : Memref sig .tc .vmem S512x2048 .f32) (harg2 : arg2.IsWhole) (arg3 : Memref sig .tc .vmem S2048x640 .f32) (harg3 : arg3.IsWhole) (arg4 : Memref sig .tc .vmem S1x640 .f32) (harg4 : arg4.IsWhole) (arg5 : Memref sig .tc .vmem S512x640 .f32) (harg5 : arg5.IsWhole)
    (x0 : Vec F S512x2048 .f32) (x1 : Vec F S2048x640 .f32) (x2 : Vec F S1x640 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__logits_kernel i arg2 harg2 arg3 harg3 arg4 harg4 arg5 harg5) K := by
  simp only [cc1__logits_kernel_eq_skeleton]; unfold cc1__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second region's pipeline on core `c`: the arrays as the region finds them; after the body at
    point `t` each input's buffer at its block and the output's at `out1_3` of the input blocks; the invariant of a kernel
    that keeps nothing; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program's run: the host operations that form the shared row, the first kernel region (the hidden layer),
  the reshape of the bias, the second kernel region (the scores), and the slice that returns the last hidden row —
  composed in order. Between two items every unscoped buffer of the core is held at named contents: the launch memory
  pushed through each host stretch, and through each region by what its pipeline's write-backs leave in its arrays.
  The conclusion reads every unscoped buffer of the final memory at the last of those contents.
-/
import proofs.«125350_j40604620816471_1_alg».proof.Proof.KI.R0Dat
import proofs.«125350_j40604620816471_1_alg».proof.Proof.KI.R1
import proofs.«125350_j40604620816471_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items -/

/-- Core `c`'s buffers at launch. -/
abbrev W0 : Dev nD → Valuation τ sig (Elt F) := fun c b => m (c, b)
/-- After the first host stretch (the shared row is formed): what the first region is entered with. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the second host stretch (the bias laid out as one row): what the second region is entered with. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-- After the last host stretch (the last hidden row sliced out): the contents the program ends with. -/
abbrev W5 : Dev nD → Valuation τ sig (Elt F) := fun c => StableHlo.after hostOps2 (W4 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The first region: entered from every unscoped buffer at `W1`, left at `W2`. Its arrays are split out of the
    unscoped buffers and put back at the exit contents; the generator register and the scoped buffers go into the
    region's invariant (which names the accumulator's contents from the first point on) and come back out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m 0 c).Φ 0 := hin0 (E1 m) c
    unfold Pipeline.ΦA at h
    iintro ⟨Hp, -, Hr⟩
    iapply h
    isplitl [Hr]; · iexact Hr
    iexact Hp
  hout c := by
    rw [Pipeline.ownSems0_none]
    have h : (pdats m 0 c).Φ (Fin.last _) ⊢ (Pipeline.ΦA spec0 c : sProp 𝕄) := hout0 (E1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`; it keeps nothing between points. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program IS the run of those segments. -/
theorem main_run (c : Dev nD) : main (F := F) c = Pipeline.Seg.run (segs m) := (main_chain c).trans (by chain_rfl)

set_option backward.isDefEq.respectTransparency.types false in
/-- From any memory with zero counters every weakly fair execution of the program on the TensorCores terminates,
    nothing faulting, and the final memory holds every unscoped buffer at the contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KI.Frame.lean ====
/-
  The argument arrays end as launched: no host operation writes one, the first region's write-backs touch only the
  hidden layer's array and the second's only the scores' array.
-/
import proofs.«125350_j40604620816471_1_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (m : (ℓ : Loc nD τ sig) → Buf (Elt F) ℓ) (ρ : Dev nD → PrngReg)

/-- The first region changes only the hidden layer's array. -/
theorem W2_keep (c : Dev nD) (b : Ref sig .tc) (hb : b ≠ main_v3) :
    W2 m c (Proc.devRef .tc b) = W1 m c (Proc.devRef .tc b) := by
  by_cases h : ∃ w, Pipeline.arrRef spec0 w = b
  · obtain ⟨w, rfl⟩ := h
    refine (W2_arr m c w).trans ?_
    fin_cases w
    · exact ((dat0 (E1 m) c).arrAt_in 0 rfl _).trans (A_eq0 (E1 m) c 0)
    · exact ((dat0 (E1 m) c).arrAt_in 1 rfl _).trans (A_eq0 (E1 m) c 1)
    · exact ((dat0 (E1 m) c).arrAt_in 2 rfl _).trans (A_eq0 (E1 m) c 2)
    · exact absurd rfl hb
  · exact W2_of_ne m c b fun w e => h ⟨w, e⟩

/-- The second region changes only the scores' array. -/
theorem W4_keep (c : Dev nD) (b : Ref sig .tc) (hb : b ≠ main_v5) :
    W4 m c (Proc.devRef .tc b) = W3 m c (Proc.devRef .tc b) := by
  by_cases h : ∃ w, Pipeline.arrRef spec1 w = b
  · obtain ⟨w, rfl⟩ := h
    refine (W4_arr m c w).trans ?_
    fin_cases w
    · exact ((dat1 (E3 m) c).arrAt_in 0 rfl _).trans (A_eq1 (E3 m) c 0)
    · exact ((dat1 (E3 m) c).arrAt_in 1 rfl _).trans (A_eq1 (E3 m) c 1)
    · exact ((dat1 (E3 m) c).arrAt_in 2 rfl _).trans (A_eq1 (E3 m) c 2)
    · exact absurd rfl hb
  · exact W4_of_ne m c b fun w e => h ⟨w, e⟩

/-- A buffer that no host stretch writes and that is neither region's output ends as launched. -/
theorem W5_keep (c : Dev nD) (b : Ref sig .tc) (h0 : b ∉ hostOps0_W) (h1 : b ∉ hostOps1_W) (h2 : b ∉ hostOps2_W)
    (h3 : b ≠ main_v3) (h5 : b ≠ main_v5) : W5 m c (Proc.devRef .tc b) = m ((c : Thread nD τ).loc b) :=
  (StableHlo.after_of_writes_sub hostOps2 _ hostOps2_writes h2).trans <|
    (W4_keep m c b h5).trans <| (StableHlo.after_of_writes_sub hostOps1 _ hostOps1_writes h1).trans <|
    (W2_keep m c b h3).trans <| (StableHlo.after_of_writes_sub hostOps0 _ hostOps0_writes h0).trans rfl

/-- The frame: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_keep m c main_arg0 (by decide) (by decide) (by decide) (by decide) (by decide)),
     (h c _ (mem_uc main_arg1 (by decide))).trans (W5_keep m c main_arg1 (by decide) (by decide) (by decide) (by decide) (by decide)),
     (h c _ (mem_uc main_arg2 (by decide))).trans (W5_keep m c main_arg2 (by decide) (by decide) (by decide) (by decide) (by decide)),
     (h c _ (mem_uc main_arg3 (by decide))).trans (W5_keep m c main_arg3 (by decide) (by decide) (by decide) (by decide) (by decide)),
     (h c _ (mem_uc main_arg4 (by decide))).trans (W5_keep m c main_arg4 (by decide) (by decide) (by decide) (by decide) (by decide)),
     (h c _ (mem_uc main_arg5 (by decide))).trans (W5_keep m c main_arg5 (by decide) (by decide) (by decide) (by decide) (by decide)),
     (h c _ (mem_uc main_arg6 (by decide))).trans (W5_keep m c main_arg6 (by decide) (by decide) (by decide) (by decide) (by decide))⟩)
    (run_all m ρ)

end Frame

end Cert.KernelIdeal.Hand

end
-- ==== Proof.Spec.lean ====
/-
  What the two programs compute, entry by entry, over the extended reals.

  One step of a recurrent layer applied to every row of a sequence at once: the hidden row
  `h[r, ·] = tanh (x[r, ·] · Wxh + hc)`, where the row `hc = hprev · Whh + bh` is the same for every `r`,
  then the output scores `h · Why + by`, and the last hidden row returned beside them.
  The sums run over the whole contracted axis (32000 for the first product, 2048 for the second).
-/
import Idealize.ShloMosaic.PureOps.Ideal
import Idealize.ShloMosaic.Lib.ValueIdx

noncomputable section

open scoped BigOperators

namespace Cert.Spec

open Idealize.ShloMosaic Idealize.ShloMosaic.ValueIdx

/-- The hidden layer at row `r`, column `c`: tanh of the inner product of row `r` of `x` with column `c` of `w`,
    plus entry `c` of the shared row `hc`. -/
def hiddenAt (x : FVec Ideal ⟨2, ![4096, 32000]⟩ .f32) (w : FVec Ideal ⟨2, ![32000, 2048]⟩ .f32)
    (hc : FVec Ideal ⟨2, ![1, 2048]⟩ .f32) (r : Fin 4096) (c : Fin 2048) : EReal :=
  Ideal.tanh ((∑ v : Fin 32000, x (ix2 r v) * w (ix2 v c)) + hc (ix2 (0 : Fin 1) c))

/-- The hidden layer as an array. -/
def hidden (x : FVec Ideal ⟨2, ![4096, 32000]⟩ .f32) (w : FVec Ideal ⟨2, ![32000, 2048]⟩ .f32)
    (hc : FVec Ideal ⟨2, ![1, 2048]⟩ .f32) : FVec Ideal ⟨2, ![4096, 2048]⟩ .f32 :=
  fun i => hiddenAt x w hc (i 0) (i 1)

/-- The scores at row `r`, column `c`: the inner product of row `r` of `h` with column `c` of `why`, plus `b c`. -/
def scoresAt (h : FVec Ideal ⟨2, ![4096, 2048]⟩ .f32) (why : FVec Ideal ⟨2, ![2048, 32000]⟩ .f32)
    (b : FVec Ideal ⟨1, ![32000]⟩ .f32) (r : Fin 4096) (c : Fin 32000) : EReal :=
  (∑ v : Fin 2048, h (ix2 r v) * why (ix2 v c)) + b (ix1 c)

/-- The scores as an array. -/
def scores (h : FVec Ideal ⟨2, ![4096, 2048]⟩ .f32) (why : FVec Ideal ⟨2, ![2048, 32000]⟩ .f32)
    (b : FVec Ideal ⟨1, ![32000]⟩ .f32) : FVec Ideal ⟨2, ![4096, 32000]⟩ .f32 :=
  fun i => scoresAt h why b (i 0) (i 1)

/-- The scores with the bias given as a one-row array (as the kernel's program lays it out). -/
def scoresRowAt (h : FVec Ideal ⟨2, ![4096, 2048]⟩ .f32) (why : FVec Ideal ⟨2, ![2048, 32000]⟩ .f32)
    (brow : FVec Ideal ⟨2, ![1, 32000]⟩ .f32) (r : Fin 4096) (c : Fin 32000) : EReal :=
  (∑ v : Fin 2048, h (ix2 r v) * why (ix2 v c)) + brow (ix2 (0 : Fin 1) c)

/-- The same as an array. -/
def scoresRow (h : FVec Ideal ⟨2, ![4096, 2048]⟩ .f32) (why : FVec Ideal ⟨2, ![2048, 32000]⟩ .f32)
    (brow : FVec Ideal ⟨2, ![1, 32000]⟩ .f32) : FVec Ideal ⟨2, ![4096, 32000]⟩ .f32 :=
  fun i => scoresRowAt h why brow (i 0) (i 1)

/-- With the one-row bias read off a flat bias, the two forms of the scores agree. -/
theorem scoresRow_of_flat (h : FVec Ideal ⟨2, ![4096, 2048]⟩ .f32) (why : FVec Ideal ⟨2, ![2048, 32000]⟩ .f32)
    (b : FVec Ideal ⟨1, ![32000]⟩ .f32) (brow : FVec Ideal ⟨2, ![1, 32000]⟩ .f32)
    (hb : ∀ c : Fin 32000, brow (ix2 (0 : Fin 1) c) = b (ix1 c)) :
    scoresRow h why brow = scores h why b := by
  funext i
  exact congrArg (fun z => (∑ v : Fin 2048, h (ix2 (i 0) v) * why (ix2 v (i 1))) + z) (hb (i 1))

/-- The last row of the hidden layer, as a one-row array. -/
def lastRow (h : FVec Ideal ⟨2, ![4096, 2048]⟩ .f32) : FVec Ideal ⟨2, ![1, 2048]⟩ .f32 :=
  fun j => h (ix2 (4095 : Fin 4096) (j 1))

end Cert.Spec

end
-- ==== Proof.KI.Ends.lean ====
/-
  The contents the regions are entered with and the program ends with, read back through the host operations: the
  first region finds `x` and `Wxh` as launched and the shared row `hprev · Whh + bh`; the second finds the hidden
  layer the first one left, `Why` as launched and the bias laid out as one row; the program ends with the scores the
  second region left and row 4095 of the hidden layer.
-/
import proofs.«125350_j40604620816471_1_alg».proof.Proof.KI.Frame
import proofs.«125350_j40604620816471_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt F) ℓ)

/-! ## What the first region is entered with -/

theorem E1_arg1 (c : Dev nD) : E1 m c main_arg1 = m ((c : Thread nD τ).loc main_arg1) :=
  StableHlo.after_of_writes_sub hostOps0 _ hostOps0_writes (by decide)
theorem E1_arg2 (c : Dev nD) : E1 m c main_arg2 = m ((c : Thread nD τ).loc main_arg2) :=
  StableHlo.after_of_writes_sub hostOps0 _ hostOps0_writes (by decide)

/-- The shared row, as the host operations before the first region form it. -/
def sharedRow (c : Dev nD) : FVec F S1x2048 .f32 :=
  addf (Host.dotGeneral dot_S1x2048_S2048x2048_S1x2048_1_0_0_1_n_n none (m ((c : Thread nD τ).loc main_arg0)) (m ((c : Thread nD τ).loc main_arg3)))
    (broadcastInDim S1x2048 ![1] bcast_S2048_S1x2048_1 (m ((c : Thread nD τ).loc main_arg5)))

theorem E1_v2 (c : Dev nD) : E1 m c main_v2 = sharedRow m c := by
  show StableHlo.after hostOps0 (W0 m c) (Proc.devRef .tc main_v2) = _
  after_results
  rfl

/-! ## What the second region is entered with -/

theorem E3_v3 (c : Dev nD) : E3 m c main_v3 = (dat0 (E1 m) c).arrAt 3 cfg0.N :=
  (StableHlo.after_of_writes_sub hostOps1 _ hostOps1_writes (by decide)).trans (W2_arr m c 3)

theorem E3_arg4 (c : Dev nD) : E3 m c main_arg4 = m ((c : Thread nD τ).loc main_arg4) :=
  (StableHlo.after_of_writes_sub hostOps1 _ hostOps1_writes (by decide)).trans <|
    (W2_keep m c main_arg4 (by decide)).trans (StableHlo.after_of_writes_sub hostOps0 _ hostOps0_writes (by decide))

theorem W2_arg6 (c : Dev nD) : W2 m c (Proc.devRef .tc main_arg6) = m ((c : Thread nD τ).loc main_arg6) :=
  (W2_keep m c main_arg6 (by decide)).trans (StableHlo.after_of_writes_sub hostOps0 _ hostOps0_writes (by decide))

/-- The bias as one row: entry (0, q) of the row is entry q of the flat bias. -/
theorem E3_v4 (c : Dev nD) (q : Fin 32000) :
    (E3 m c main_v4 : S1x32000.Idx → Elt F (.f32)) (ix2 (0 : Fin 1) q) = (m ((c : Thread nD τ).loc main_arg6) : S32000.Idx → Elt F (.f32)) (ix1 q) := by
  show StableHlo.after hostOps1 (W2 m c) (Proc.devRef .tc main_v4) (ix2 (0 : Fin 1) q) = _
  after_results
  show shapeCast S1x32000 (W2 m c (Proc.devRef .tc main_arg6)) shapeCasts_S32000_S1x32000 (ix2 (0 : Fin 1) q) = _
  refine ((shapeCast_addUnit_apply (![32000] : Fin 1 → Nat) (W2 m c (Proc.devRef .tc main_arg6)) shapeCasts_S32000_S1x32000 (ix2 (0 : Fin 1) q)).trans ?_)
  refine (congrArg (W2 m c (Proc.devRef .tc main_arg6)) (funext fun a => ?_)).trans (congrFun (W2_arg6 m c) (ix1 q))
  match a with | ⟨0, _⟩ => rfl

/-! ## What the program ends with -/

theorem W5_v5 (c : Dev nD) : W5 m c main_v5 = (dat1 (E3 m) c).arrAt 3 cfg1.N :=
  (StableHlo.after_of_writes_sub hostOps2 _ hostOps2_writes (by decide)).trans (W4_arr m c 3)

theorem W4_v3 (c : Dev nD) : W4 m c (Proc.devRef .tc main_v3) = (dat0 (E1 m) c).arrAt 3 cfg0.N :=
  (W4_keep m c main_v3 (by decide)).trans (E3_v3 m c)

theorem W5_v6 (c : Dev nD) : W5 m c main_v6 = extractStridedSlice S1x2048 ![4095, 0] ((dat0 (E1 m) c).arrAt 3 cfg0.N) slices_S4096x2048_S1x2048_4095_0 := by
  show StableHlo.after hostOps2 (W4 m c) (Proc.devRef .tc main_v6) = _
  after_results
  exact congrArg (fun h => extractStridedSlice S1x2048 ![4095, 0] h slices_S4096x2048_S1x2048_4095_0) (W4_v3 m c)

end Cert.KernelIdeal.Hand

end
-- ==== Proof.KI.V0Pieces.lean ====
/-
  The first kernel region's found pieces as the body's arithmetic, and that arithmetic read entry by entry over the
  extended reals: clearing gives zero, a step adds the product of the step's two blocks to the accumulator, and the
  output block is tanh of the accumulator plus the shared row.
-/
import proofs.«125350_j40604620816471_1_alg».proof.Proof.KI.R0Dat
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## What each case's run found, as the skeleton's payloads (at any float instance) -/

/-- The offsets of a whole block's rectangle are zero on both axes. -/
private theorem hz00 : (![0, 0] : Fin 2 → Nat) = fun _ => 0 := funext fun a => by fin_cases a <;> rfl

/-- The first step leaves the step's product added to the cleared accumulator. -/
theorem accFirst_eq (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i)
    (x0 : Vec F S512x640 .f32) (x1 : Vec F S640x2048 .f32) (x2 : Vec F S1x2048 .f32) :
    accFirst c i arg2 harg2 arg3 harg3 arg4 harg4 arg5 harg5 arg6 harg6 hc0 hc1 x0 x1 x2 = k0_pay2 x0 x1 (k0_pay1 (F := F)) := by
  unfold accFirst
  rw [View.read_writes_eq_canon _ _ _ (coverFirst c i arg2 harg2 arg3 harg3 arg4 harg4 arg5 harg5 arg6 harg6 hc0 hc1 x0 x1 x2)]
  unfold kernelRunFirst
  dsimp only
  sl_unfold_words
  rw [View.canon_cons_unit_zero (S := S512x2048) hz00, View.readCov_unit_zero (S := S512x2048) _ hz00]
  simp only [View.readAt_eq_ld, harg2.read_unread, harg3.read_unread, harg4.read_unread, harg5.read_unread, harg6.read_unread, View.readCov_unit_zero (S := S512x2048) _ hz00, View.ld_unit_zero (S := S512x640) hz00, View.ld_unit_zero (S := S640x2048) hz00, View.ld_unit_zero (S := S1x2048) hz00, View.ld_unit_zero (S := S512x2048) hz00]

/-- A middle step leaves the step's product added to what the step before left. -/
theorem accMid_eq (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i)
    (x0 : Vec F S512x640 .f32) (x1 : Vec F S640x2048 .f32) (x2 : Vec F S1x2048 .f32) (xs : Vec F S512x2048 .f32) :
    accMid c i arg2 harg2 arg3 harg3 arg4 harg4 arg5 harg5 arg6 harg6 hc0 hc1 x0 x1 x2 xs = k0_pay2 x0 x1 xs := by
  unfold accMid
  rw [View.read_writes_eq_canon _ _ _ (coverMid c i arg2 harg2 arg3 harg3 arg4 harg4 arg5 harg5 arg6 harg6 hc0 hc1 x0 x1 x2 xs)]
  unfold kernelRunMid
  dsimp only
  sl_unfold_words
  rw [View.canon_unit_zero hz00]
  simp only [View.readAt_eq_ld, harg2.read_unread, harg3.read_unread, harg4.read_unread, harg5.read_unread, harg6.read_unread, View.readCov_unit_zero (S := S512x2048) _ hz00, View.ld_unit_zero (S := S512x640) hz00, View.ld_unit_zero (S := S640x2048) hz00, View.ld_unit_zero (S := S1x2048) hz00, View.ld_unit_zero (S := S512x2048) hz00]

/-- So does the last step, -/
theorem accLast_eq (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) :
    accLast c i arg2 harg2 arg3 harg3 arg4 harg4 arg5 harg5 arg6 harg6 hc0 hc1 x0 x1 x2 xs = k0_pay2 x0 x1 xs := by
  unfold accLast
  rw [View.read_writes_eq_canon _ _ _ (coverLastAcc c i arg2 harg2 arg3 harg3 arg4 harg4 arg5 harg5 arg6 harg6 hc0 hc1 x0 x1 x2 xs)]
  unfold kernelRunLast
  dsimp only
  sl_unfold_words
  rw [View.canon_unit_zero hz00]
  simp only [View.readAt_eq_ld, harg2.read_unread, harg3.read_unread, harg4.read_unread, harg5.read_unread, harg6.read_unread, View.readCov_unit_zero (S := S512x2048) _ hz00, View.ld_unit_zero (S := S512x640) hz00, View.ld_unit_zero (S := S640x2048) hz00, View.ld_unit_zero (S := S1x2048) hz00, View.ld_unit_zero (S := S512x2048) hz00]

/-- and it stores into the output block the third payload of that sum and the shared row. -/
theorem outLast_eq (c : Dev nD) (i : grid0.Coords) (arg2 : Memref sig .tc .vmem S512x640 .f32) (harg2 : arg2.IsWhole) (arg3 : Memref sig .tc .vmem S640x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x640 .f32) (x1 : Vec F S640x2048 .f32) (x2 : Vec F S1x2048 .f32) (xs : Vec F S512x2048 .f32) :
    outLast c i arg2 harg2 arg3 harg3 arg4 harg4 arg5 harg5 arg6 harg6 hc0 hc1 x0 x1 x2 xs = k0_pay3 (k0_pay2 x0 x1 xs) x2 := by
  unfold outLast
  rw [View.read_writes_eq_canon _ _ _ (coverLastOut c i arg2 harg2 arg3 harg3 arg4 harg4 arg5 harg5 arg6 harg6 hc0 hc1 x0 x1 x2 xs)]
  unfold kernelRunLast
  dsimp only
  sl_unfold_words
  rw [View.canon_unit_zero hz00]
  simp only [View.readAt_eq_ld, harg2.read_unread, harg3.read_unread, harg4.read_unread, harg5.read_unread, harg6.read_unread, View.readCov_unit_zero (S := S512x2048) _ hz00, View.ld_unit_zero (S := S512x640) hz00, View.ld_unit_zero (S := S640x2048) hz00, View.ld_unit_zero (S := S1x2048) hz00, View.ld_unit_zero (S := S512x2048) hz00]

/-! ## The payloads entry by entry, over the extended reals -/

/-- The left operand's row is the output's row; -/
theorem lhs_k0_0 (i : S512x2048.Idx) (q : dot_S512x640_S640x2048_S512x2048_1_0_0_1_n_n.contr.Idx) :
    (dot_S512x640_S640x2048_S512x2048_1_0_0_1_n_n.lhsIdx i q 0).val = (i 0).val := by
  unfold DotDims.lhsIdx
  rw [dif_neg (show ¬(0 : Fin S512x640.rank) ∈ dot_S512x640_S640x2048_S512x2048_1_0_0_1_n_n.lhsBatch by decide), dif_pos (show (0 : Fin S512x640.rank) ∈ dot_S512x640_S640x2048_S512x2048_1_0_0_1_n_n.lhsNonContracting by decide)]
  rfl
/-- its column is the contraction index, -/
theorem lhs_k0_1 (i : S512x2048.Idx) (q : dot_S512x640_S640x2048_S512x2048_1_0_0_1_n_n.contr.Idx) :
    (dot_S512x640_S640x2048_S512x2048_1_0_0_1_n_n.lhsIdx i q 1).val = (q ⟨0, by decide⟩).val :=
  dot_S512x640_S640x2048_S512x2048_1_0_0_1_n_n.lhsIdx_val_of_single rfl i q
/-- which is also the right operand's row; -/
theorem rhs_k0_0 (i : S512x2048.Idx) (q : dot_S512x640_S640x2048_S512x2048_1_0_0_1_n_n.contr.Idx) :
    (dot_S512x640_S640x2048_S512x2048_1_0_0_1_n_n.rhsIdx i q 0).val = (q ⟨0, by decide⟩).val :=
  dot_S512x640_S640x2048_S512x2048_1_0_0_1_n_n.rhsIdx_val_of_single rfl i q
/-- the right operand's column is the output's column. -/
theorem rhs_k0_1 (i : S512x2048.Idx) (q : dot_S512x640_S640x2048_S512x2048_1_0_0_1_n_n.contr.Idx) :
    (dot_S512x640_S640x2048_S512x2048_1_0_0_1_n_n.rhsIdx i q 1).val = (i 1).val := by
  unfold DotDims.rhsIdx
  rw [dif_neg (show ¬(1 : Fin S640x2048.rank) ∈ dot_S512x640_S640x2048_S512x2048_1_0_0_1_n_n.rhsBatch by decide), dif_pos (show (1 : Fin S640x2048.rank) ∈ dot_S512x640_S640x2048_S512x2048_1_0_0_1_n_n.rhsNonContracting by decide)]
  rfl

/-- Into the zero accumulator the product's entry (p, q) is the inner product of row p of the left operand with
    column q of the right one, the contraction index running over the 640 shared positions. -/
theorem k0_dot_apply (a : FVec Ideal S512x640 .bf16) (b : FVec Ideal S640x2048 .bf16) (p : Fin 512) (q : Fin 2048) :
    matmul (F := Ideal) dot_S512x640_S640x2048_S512x2048_1_0_0_1_n_n none a b (constant (F := Ideal) S512x2048 .f32 0x00000000#32) (ix2 p q)
      = ∑ l : Fin 640, a (ix2 p l) * b (ix2 l q) := by
  simp only [matmul]
  rw [Ideal.matmul_constant_zero_apply, ← Equiv.sum_comp (contrEquiv1 dot_S512x640_S640x2048_S512x2048_1_0_0_1_n_n 640 rfl rfl).symm]
  refine Finset.sum_congr rfl fun k _ => ?_
  have hk := contrEquiv1_symm_val dot_S512x640_S640x2048_S512x2048_1_0_0_1_n_n 640 rfl rfl k
  have el : dot_S512x640_S640x2048_S512x2048_1_0_0_1_n_n.lhsIdx (ix2 p q) ((contrEquiv1 dot_S512x640_S640x2048_S512x2048_1_0_0_1_n_n 640 rfl rfl).symm k) = ix2 p k := funext fun a => Fin.ext (by
    match a with
    | ⟨0, _⟩ => exact lhs_k0_0 _ _
    | ⟨1, _⟩ => exact (lhs_k0_1 _ _).trans hk)
  have er : dot_S512x640_S640x2048_S512x2048_1_0_0_1_n_n.rhsIdx (ix2 p q) ((contrEquiv1 dot_S512x640_S640x2048_S512x2048_1_0_0_1_n_n 640 rfl rfl).symm k) = ix2 k q := funext fun a => Fin.ext (by
    match a with
    | ⟨0, _⟩ => exact (rhs_k0_0 _ _).trans hk
    | ⟨1, _⟩ => exact rhs_k0_1 _ _)
  rw [el, er]

/-- The cleared accumulator is zero everywhere. -/
theorem pay1_apply (j : S512x2048.Idx) : k0_pay1 (F := Ideal) j = 0 := by
  unfold k0_pay1
  refine (congrFun (shapeCast_self _ _) j).trans ?_
  exact Ideal.ofBits_zero_f32

/-- A step adds to entry (p, q) the inner product of row p of the `x` block with column q of the `Wxh` block. -/
theorem pay2_apply (x0 : Vec Ideal S512x640 .f32) (x1 : Vec Ideal S640x2048 .f32) (xs : Vec Ideal S512x2048 .f32)
    (p : Fin 512) (q : Fin 2048) :
    k0_pay2 (F := Ideal) x0 x1 xs (ix2 p q) = xs (ix2 p q) + ∑ l : Fin 640, x0 (ix2 p l) * x1 (ix2 l q) := by
  unfold k0_pay2
  refine (congrFun (shapeCast_self _ _) (ix2 p q)).trans ?_
  refine congrArg (xs (ix2 p q) + ·) ?_
  exact k0_dot_apply _ _ p q

/-- The output entry (p, q) is tanh of the accumulator's entry plus entry q of the shared row. -/
theorem pay3_apply (a : Vec Ideal S512x2048 .f32) (x2 : Vec Ideal S1x2048 .f32) (p : Fin 512) (q : Fin 2048) :
    k0_pay3 (F := Ideal) a x2 (ix2 p q) = Ideal.tanh (a (ix2 p q) + x2 (ix2 (0 : Fin 1) q)) := by
  unfold k0_pay3
  refine congrArg (fun t => Ideal.tanh (a (ix2 p q) + t)) ?_
  refine (broadcastTo_apply _ broadcasts_S1x2048_S512x2048 (ix2 p q) (ix2 (0 : Fin 1) q) (fun a => ?_)).trans ?_
  · match a with
    | ⟨0, _⟩ => rfl
    | ⟨1, _⟩ => rfl
  · exact congrFun (shapeCast_self _ _) _

end Cert.KernelIdeal.Hand

end
-- ==== Proof.KI.V0Array.lean ====
/-
  The hidden layer as the first kernel region leaves it: the accumulator after step k of row block b holds, at entry
  (p, q), the inner product of row 512 b + p of `x` with column q of `Wxh` over the first 640 (k + 1) terms of the
  contracted axis; at the last step that is the whole inner product, and the output block written back is
  tanh of it plus the shared row. The row blocks tile the array, so the array is the hidden layer entry by entry.
-/
import proofs.«125350_j40604620816471_1_alg».proof.Proof.KI.V0Pieces
import proofs.«125350_j40604620816471_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section Hidden

variable (V : (c : Dev nD) → (b : Ref sig .tc) → Buf (Elt Ideal) ((c : Thread nD τ).loc b))

/-! ## The arrays and the blocks, at their literal types -/

/-- `x`, `Wxh` and the shared row as the region finds them. -/
private abbrev xarr (c : Dev nD) : FVec Ideal ⟨2, ![4096, 32000]⟩ .f32 := V c main_arg1
private abbrev warr (c : Dev nD) : FVec Ideal ⟨2, ![32000, 2048]⟩ .f32 := V c main_arg2
private abbrev harr (c : Dev nD) : FVec Ideal ⟨2, ![1, 2048]⟩ .f32 := V c main_v2

/-- The blocks of the three inputs at point `t`. -/
private abbrev xblk (c : Dev nD) (t : Fin cfg0.N) : Vec Ideal S512x640 .f32 := iblk0 V c 0 t
private abbrev wblk (c : Dev nD) (t : Fin cfg0.N) : Vec Ideal S640x2048 .f32 := iblk0 V c 1 t
private abbrev hblk (c : Dev nD) (t : Fin cfg0.N) : Vec Ideal S1x2048 .f32 := iblk0 V c 2 t

/-- The block indices at point `t` of the grid of 8 row blocks by 50 steps: `x` is at (row block, step), `Wxh` at
    (step, 0), the shared row at (0, 0), the output at (row block, 0). -/
private theorem idx_facts0 : ∀ t : Fin cfg0.N,
    win0_0.index t (0 : Fin 2) = t.val / 50 ∧ win0_0.index t (1 : Fin 2) = t.val % 50
    ∧ win0_1.index t (0 : Fin 2) = t.val % 50 ∧ win0_1.index t (1 : Fin 2) = 0
    ∧ win0_2.index t (0 : Fin 2) = 0 ∧ win0_2.index t (1 : Fin 2) = 0
    ∧ win0_3.index t (0 : Fin 2) = t.val / 50 ∧ win0_3.index t (1 : Fin 2) = 0 :=
  (by decide +kernel : ∀ t : Fin grid0.N, _)

/-- Entry (p, l) of the `x` block at point `t` is entry (512 (t / 50) + p, 640 (t % 50) + l) of `x`. -/
private theorem xblk_apply (c : Dev nD) (t : Fin cfg0.N) (p : Fin 512) (l : Fin 640) (r : Fin 4096) (v : Fin 32000)
    (hr : r.val = 512 * (t.val / 50) + p.val) (hv : v.val = 640 * (t.val % 50) + l.val) :
    xblk V c t (ix2 p l) = xarr V c (ix2 r v) := by
  obtain ⟨e0, e1, -⟩ := idx_facts0 t
  show iblk0 V c 0 t (ix2 p l) = _
  unfold iblk0
  rw [View.read_apply]
  show V c main_arg1 _ = V c main_arg1 _
  congr 1
  funext a
  apply Fin.ext
  match a with
  | ⟨0, _⟩ => show win0_0.index t (0 : Fin 2) * 512 + 1 * p.val = r.val; rw [e0]; omega
  | ⟨1, _⟩ => show win0_0.index t (1 : Fin 2) * 640 + 1 * l.val = v.val; rw [e1]; omega

/-- Entry (l, q) of the `Wxh` block at point `t` is entry (640 (t % 50) + l, q) of `Wxh`. -/
private theorem wblk_apply (c : Dev nD) (t : Fin cfg0.N) (l : Fin 640) (q : Fin 2048) (v : Fin 32000)
    (hv : v.val = 640 * (t.val % 50) + l.val) :
    wblk V c t (ix2 l q) = warr V c (ix2 v q) := by
  obtain ⟨-, -, e2, e3, -⟩ := idx_facts0 t
  show iblk0 V c 1 t (ix2 l q) = _
  unfold iblk0
  rw [View.read_apply]
  show V c main_arg2 _ = V c main_arg2 _
  congr 1
  funext a
  apply Fin.ext
  match a with
  | ⟨0, _⟩ => show win0_1.index t (0 : Fin 2) * 640 + 1 * l.val = v.val; rw [e2]; omega
  | ⟨1, _⟩ => show win0_1.index t (1 : Fin 2) * 2048 + 1 * q.val = q.val; rw [e3]; omega

/-- The shared row's block is the shared row, at every point. -/
private theorem hblk_apply (c : Dev nD) (t : Fin cfg0.N) (q : Fin 2048) :
    hblk V c t (ix2 (0 : Fin 1) q) = harr V c (ix2 (0 : Fin 1) q) := by
  obtain ⟨-, -, -, -, e4, e5, -⟩ := idx_facts0 t
  show iblk0 V c 2 t (ix2 (0 : Fin 1) q) = _
  unfold iblk0
  rw [View.read_apply]
  show V c main_v2 _ = V c main_v2 _
  congr 1
  funext a
  apply Fin.ext
  match a with
  | ⟨0, _⟩ => show win0_2.index t (0 : Fin 2) * 1 + 1 * (0 : Fin 1).val = (0 : Fin 1).val; rw [e4]; rfl
  | ⟨1, _⟩ => show win0_2.index t (1 : Fin 2) * 2048 + 1 * q.val = q.val; rw [e5]; omega

/-! ## One step of the accumulator, entry by entry -/

/-- At the first step of a row block the accumulator's entry is the step's inner product (added to the cleared entry). -/
private theorem acc_first (c : Dev nD) (t : Fin cfg0.N) (h0 : t.val % 50 = 0) (h1 : ¬t.val % 50 = 49) (p : Fin 512) (q : Fin 2048) :
    (outsAt0 V c t.val t.isLt).2 (ix2 p q) = ∑ l : Fin 640, xblk V c t (ix2 p l) * wblk V c t (ix2 l q) := by
  rw [outsAt0_first V c t h0 h1]
  dsimp only
  refine (congrFun (accFirst_eq (F := Ideal) c (grid0.coords t) (ms0_0 t) (hs0_0 t) (ms0_1 t) (hs0_1 t) (ms0_2 t) (hs0_2 t) (ms0_3 t) (hs0_3 t) accM (Memref.isWhole_whole _) ((isFirst_iff t).mpr h0) (fun h => h1 ((isLast_iff t).mp h)) (xblk V c t) (wblk V c t) (hblk V c t)) (ix2 p q)).trans ?_
  refine (pay2_apply (xblk V c t) (wblk V c t) (k0_pay1 (F := Ideal)) p q).trans ?_
  rw [pay1_apply, zero_add]

/-- At every later step it is the entry the step before left plus the step's inner product. -/
private theorem acc_step (c : Dev nD) (t : Fin cfg0.N) (h0 : ¬t.val % 50 = 0) (p : Fin 512) (q : Fin 2048) :
    (outsAt0 V c t.val t.isLt).2 (ix2 p q)
      = (outsAt0 V c (t.val - 1) (Nat.lt_of_le_of_lt (Nat.sub_le _ _) t.isLt)).2 (ix2 p q) + ∑ l : Fin 640, xblk V c t (ix2 p l) * wblk V c t (ix2 l q) := by
  by_cases h1 : t.val % 50 = 49
  · rw [outsAt0_last V c t h0 h1]
    dsimp only
    refine (congrFun (accLast_eq (F := Ideal) c (grid0.coords t) (ms0_0 t) (hs0_0 t) (ms0_1 t) (hs0_1 t) (ms0_2 t) (hs0_2 t) (ms0_3 t) (hs0_3 t) accM (Memref.isWhole_whole _) (fun h => h0 ((isFirst_iff t).mp h)) ((isLast_iff t).mpr h1) (xblk V c t) (wblk V c t) (hblk V c t) (outsAt0 V c (t.val - 1) (Nat.lt_of_le_of_lt (Nat.sub_le _ _) t.isLt)).2) (ix2 p q)).trans ?_
    exact pay2_apply (xblk V c t) (wblk V c t) (outsAt0 V c (t.val - 1) (Nat.lt_of_le_of_lt (Nat.sub_le _ _) t.isLt)).2 p q
  · rw [outsAt0_mid V c t h0 h1]
    dsimp only
    refine (congrFun (accMid_eq (F := Ideal) c (grid0.coords t) (ms0_0 t) (hs0_0 t) (ms0_1 t) (hs0_1 t) (ms0_2 t) (hs0_2 t) (ms0_3 t) (hs0_3 t) accM (Memref.isWhole_whole _) (fun h => h0 ((isFirst_iff t).mp h)) (fun h => h1 ((isLast_iff t).mp h)) (xblk V c t) (wblk V c t) (hblk V c t) (outsAt0 V c (t.val - 1) (Nat.lt_of_le_of_lt (Nat.sub_le _ _) t.isLt)).2) (ix2 p q)).trans ?_
    exact pay2_apply (xblk V c t) (wblk V c t) (outsAt0 V c (t.val - 1) (Nat.lt_of_le_of_lt (Nat.sub_le _ _) t.isLt)).2 p q

/-- At the last step of a row block the output block's entry is tanh of the accumulator's entry plus the shared row's. -/
private theorem out_last (c : Dev nD) (t : Fin cfg0.N) (h0 : ¬t.val % 50 = 0) (h1 : t.val % 50 = 49) (p : Fin 512) (q : Fin 2048) :
    (outsAt0 V c t.val t.isLt).1 (ix2 p q)
      = Ideal.tanh ((outsAt0 V c t.val t.isLt).2 (ix2 p q) + hblk V c t (ix2 (0 : Fin 1) q)) := by
  have ea := accLast_eq (F := Ideal) c (grid0.coords t) (ms0_0 t) (hs0_0 t) (ms0_1 t) (hs0_1 t) (ms0_2 t) (hs0_2 t) (ms0_3 t) (hs0_3 t) accM (Memref.isWhole_whole _) (fun h => h0 ((isFirst_iff t).mp h)) ((isLast_iff t).mpr h1) (xblk V c t) (wblk V c t) (hblk V c t) (outsAt0 V c (t.val - 1) (Nat.lt_of_le_of_lt (Nat.sub_le _ _) t.isLt)).2
  have eo := outLast_eq (F := Ideal) c (grid0.coords t) (ms0_0 t) (hs0_0 t) (ms0_1 t) (hs0_1 t) (ms0_2 t) (hs0_2 t) (ms0_3 t) (hs0_3 t) accM (Memref.isWhole_whole _) (fun h => h0 ((isFirst_iff t).mp h)) ((isLast_iff t).mpr h1) (xblk V c t) (wblk V c t) (hblk V c t) (outsAt0 V c (t.val - 1) (Nat.lt_of_le_of_lt (Nat.sub_le _ _) t.isLt)).2
  rw [outsAt0_last V c t h0 h1]
  dsimp only
  refine (congrFun eo (ix2 p q)).trans ?_
  refine (pay3_apply _ (hblk V c t) p q).trans ?_
  exact congrArg (fun z => Ideal.tanh (z + hblk V c t (ix2 (0 : Fin 1) q))) (congrFun ea (ix2 p q)).symm

/-- The same two steps with the point given by its position. -/
private theorem acc_first_at (c : Dev nD) (n : ℕ) (h : n < cfg0.N) (h0 : n % 50 = 0) (p : Fin 512) (q : Fin 2048) :
    (outsAt0 V c n h).2 (ix2 p q) = ∑ l : Fin 640, xblk V c ⟨n, h⟩ (ix2 p l) * wblk V c ⟨n, h⟩ (ix2 l q) :=
  acc_first V c ⟨n, h⟩ h0 (by dsimp only; omega) p q

private theorem acc_succ (c : Dev nD) (n : ℕ) (h : n + 1 < cfg0.N) (h0 : ¬(n + 1) % 50 = 0) (p : Fin 512) (q : Fin 2048) :
    (outsAt0 V c (n + 1) h).2 (ix2 p q)
      = (outsAt0 V c n (Nat.lt_of_succ_lt h)).2 (ix2 p q) + ∑ l : Fin 640, xblk V c ⟨n + 1, h⟩ (ix2 p l) * wblk V c ⟨n + 1, h⟩ (ix2 l q) :=
  acc_step V c ⟨n + 1, h⟩ h0 p q

/-! ## The accumulator is the partial inner product -/

/-- The product at position `v` of the contracted axis, for row `r` of `x` and column `q` of `Wxh` (zero past the arrays,
    where it is never consulted). -/
private def term (c : Dev nD) (r : ℕ) (q : Fin 2048) (v : ℕ) : EReal :=
  if h : r < 4096 ∧ v < 32000 then xarr V c (ix2 ⟨r, h.1⟩ ⟨v, h.2⟩) * warr V c (ix2 ⟨v, h.2⟩ q) else 0

/-- A step's inner product over its two blocks is the sum of the 640 products at the step's stretch of the contracted axis. -/
private theorem blocksum_eq (c : Dev nD) (t : Fin cfg0.N) (p : Fin 512) (q : Fin 2048) (b k : ℕ) (hb : b = t.val / 50) (hk : k = t.val % 50) :
    ∑ l : Fin 640, xblk V c t (ix2 p l) * wblk V c t (ix2 l q)
      = ∑ v ∈ Finset.range 640, term V c (512 * b + p.val) q (640 * k + v) := by
  subst hb hk
  have hN : t.val < 400 := lt_of_lt_of_eq t.isLt (show cfg0.N = 400 from N_0)
  rw [← Fin.sum_univ_eq_sum_range (fun v => term V c (512 * (t.val / 50) + p.val) q (640 * (t.val % 50) + v)) 640]
  refine Finset.sum_congr rfl fun l _ => ?_
  have hr : 512 * (t.val / 50) + p.val < 4096 := by have := p.isLt; omega
  have hv : 640 * (t.val % 50) + l.val < 32000 := by have := l.isLt; omega
  unfold term
  rw [dif_pos ⟨hr, hv⟩, xblk_apply V c t p l ⟨_, hr⟩ ⟨_, hv⟩ rfl rfl, wblk_apply V c t l q ⟨_, hv⟩ rfl]

/-- After step k of row block b the accumulator's entry (p, q) is the inner product of row 512 b + p of `x` with column q
    of `Wxh` over the first 640 (k + 1) positions of the contracted axis. -/
private theorem acc_eq (c : Dev nD) (p : Fin 512) (q : Fin 2048) : ∀ (n : ℕ) (h : n < cfg0.N),
    (outsAt0 V c n h).2 (ix2 p q) = ∑ v ∈ Finset.range (640 * (n % 50 + 1)), term V c (512 * (n / 50) + p.val) q v := by
  have first : ∀ (n : ℕ) (h : n < cfg0.N), n % 50 = 0 →
      (outsAt0 V c n h).2 (ix2 p q) = ∑ v ∈ Finset.range (640 * (n % 50 + 1)), term V c (512 * (n / 50) + p.val) q v := by
    intro n h h0
    rw [acc_first_at V c n h h0 p q, blocksum_eq V c ⟨n, h⟩ p q (n / 50) (n % 50) rfl rfl, h0]
    refine Finset.sum_congr rfl fun v _ => ?_
    rw [Nat.mul_zero, Nat.zero_add]
  intro n
  induction n with
  | zero => exact fun h => first 0 h (Nat.zero_mod _)
  | succ n ih =>
    intro h
    by_cases h0 : (n + 1) % 50 = 0
    · exact first (n + 1) h h0
    · have hd : n / 50 = (n + 1) / 50 := by omega
      have hm : n % 50 + 1 = (n + 1) % 50 := by omega
      rw [acc_succ V c n h h0 p q, ih (Nat.lt_of_succ_lt h),
        blocksum_eq V c ⟨n + 1, h⟩ p q (n / 50) (n % 50 + 1) hd hm, ← hd, ← hm,
        show 640 * (n % 50 + 1 + 1) = 640 * (n % 50 + 1) + 640 from by omega, Finset.sum_range_add]

/-- At the last step of a row block that is the whole inner product. -/
private theorem acc_last_eq (c : Dev nD) (t : Fin cfg0.N) (h1 : t.val % 50 = 49) (p : Fin 512) (q : Fin 2048) (r : Fin 4096)
    (hr : r.val = 512 * (t.val / 50) + p.val) :
    (outsAt0 V c t.val t.isLt).2 (ix2 p q) = ∑ v : Fin 32000, xarr V c (ix2 r v) * warr V c (ix2 v q) := by
  rw [acc_eq V c p q t.val t.isLt, h1, ← hr, show 640 * (49 + 1) = 32000 from rfl, Finset.sum_range]
  refine Finset.sum_congr rfl fun v _ => ?_
  unfold term
  rw [dif_pos ⟨r.isLt, v.isLt⟩]

/-! ## The output block at the last step, and the array -/

/-- At the last step of a row block the output block's entry (p, q) is the hidden layer's entry at row 512 b + p, column q. -/
private theorem out_hidden (c : Dev nD) (t : Fin cfg0.N) (h0 : ¬t.val % 50 = 0) (h1 : t.val % 50 = 49) (p : Fin 512) (q : Fin 2048)
    (r : Fin 4096) (hr : r.val = 512 * (t.val / 50) + p.val) :
    (outsAt0 V c t.val t.isLt).1 (ix2 p q) = Cert.Spec.hidden (xarr V c) (warr V c) (harr V c) (ix2 r q) := by
  rw [out_last V c t h0 h1 p q, acc_last_eq V c t h1 p q r hr, hblk_apply V c t q]
  rfl

/-- What a last step writes back is its block of the hidden layer. -/
private theorem flushed0_eq (c : Dev nD) (t : Fin cfg0.N) (hf : (cfg0.win 3).flush t = true) :
    (dat0 (F := Ideal) V c).flushed 3 t
      = ((cfg0.win 3).blk t).view.read (Elt Ideal) (Cert.Spec.hidden (V c main_arg1) (V c main_arg2) (V c main_v2)) := by
  have h1 : t.val % 50 = 49 := (flush0_3 t).mp hf
  have h0 : ¬t.val % 50 = 0 := by omega
  have hN : t.val < 400 := lt_of_lt_of_eq t.isLt (show cfg0.N = 400 from N_0)
  obtain ⟨-, -, -, -, -, -, e6, e7⟩ := idx_facts0 t
  show (cfg0.win 3).cut (grid0.coords t) ((dat0 (F := Ideal) V c).after 3 t) = _
  rw [after0_3]
  generalize hG : Cert.Spec.hidden (V c main_arg1) (V c main_arg2) (V c main_v2) = G
  funext j
  have hj0 : (j 0).val < 512 := (j 0).isLt
  have hj1 : (j 1).val < 2048 := (j 1).isLt
  show (outsAt0 V c t.val t.isLt).1 ((cfg0.win 3).xinj (grid0.coords t) j) = G (((cfg0.win 3).blk t).view.emb j)
  have ei : (cfg0.win 3).xinj (grid0.coords t) j = ix2 (⟨(j 0).val, hj0⟩ : Fin 512) (⟨(j 1).val, hj1⟩ : Fin 2048) :=
    funext fun a => by
      match a with
      | ⟨0, _⟩ => rfl
      | ⟨1, _⟩ => rfl
  have ek : ((cfg0.win 3).blk t).view.emb j
      = ix2 (⟨512 * (t.val / 50) + (j 0).val, by omega⟩ : Fin 4096) (⟨(j 1).val, hj1⟩ : Fin 2048) :=
    funext fun a => Fin.ext (by
      match a with
      | ⟨0, _⟩ => show win0_3.index t (0 : Fin 2) * 512 + 1 * (j 0).val = 512 * (t.val / 50) + (j 0).val; rw [e6]; omega
      | ⟨1, _⟩ => show win0_3.index t (1 : Fin 2) * 2048 + 1 * (j 1).val = (j 1).val; rw [e7]; omega)
  rw [ei, ek, ← hG]
  exact out_hidden V c t h0 h1 _ _ _ rfl

/-- Row `r` of the array lies in the block the last step of row block `r / 512` writes back. -/
private theorem cover0 (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 400 := N_0
  obtain ⟨t, ht⟩ : ∃ t : Fin cfg0.N, t.val = 50 * ((i 0).val / 512) + 49 := ⟨⟨50 * ((i 0).val / 512) + 49, by rw [hN]; omega⟩, rfl⟩
  obtain ⟨-, -, -, -, -, -, e6, e7⟩ := idx_facts0 t
  refine ⟨t, (flush0_3 t).mpr (by omega), ?_⟩
  show i ∈ ((View.whole main_v3).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512
              rw [e6]; omega
  | ⟨1, _⟩ => show win0_3.index t (1 : Fin 2) * 2048 ≤ (i 1).val ∧ (i 1).val < win0_3.index t (1 : Fin 2) * 2048 + 2048
              rw [e7]; omega

end Hidden

/-- After the first region, at the exact reals, its output array is the hidden layer of the arrays it was entered
    with: `x`, `Wxh` and the shared row. -/
theorem arr0_eq (V : (c : Dev nD) → (b : Ref sig .tc) → Buf (Elt Ideal) ((c : Thread nD τ).loc b)) (c : Dev nD) :
    (dat0 (F := Ideal) V c).arrAt 3 cfg0.N = Cert.Spec.hidden (V c main_arg1) (V c main_arg2) (V c main_v2) := by
  exact (dat0 (F := Ideal) V c).arrAt_eq_of_cover 3 (Cert.Spec.hidden (V c main_arg1) (V c main_arg2) (V c main_v2))
    (flushed0_eq V c) cover0

end Cert.KernelIdeal.Hand

end
-- ==== Proof.KI.V1Array.lean ====
/-
  The scores as the second kernel region leaves them: the block written back at grid point (b, j) holds, at entry
  (p, q), the inner product of row 512 b + p of the hidden layer with column 640 j + q of `Why`, plus entry
  640 j + q of the bias row; the blocks tile the array.
-/
import proofs.«125350_j40604620816471_1_alg».proof.Proof.KI.R1
import proofs.«125350_j40604620816471_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The body's product, one entry at a time -/

/-- Row of the hidden block read by the product at output entry `i`: the entry's row. -/
private theorem scoresLhs_0 (i : S512x640.Idx) (q : dot_S512x2048_S2048x640_S512x640_1_0_0_1_n_n.contr.Idx) :
    (dot_S512x2048_S2048x640_S512x640_1_0_0_1_n_n.lhsIdx i q 0).val = (i 0).val := by
  unfold DotDims.lhsIdx
  rw [dif_neg (show ¬(0 : Fin S512x2048.rank) ∈ dot_S512x2048_S2048x640_S512x640_1_0_0_1_n_n.lhsBatch by decide), dif_pos (show (0 : Fin S512x2048.rank) ∈ dot_S512x2048_S2048x640_S512x640_1_0_0_1_n_n.lhsNonContracting by decide)]
  rfl
/-- Its column: the summation index. -/
private theorem scoresLhs_1 (i : S512x640.Idx) (q : dot_S512x2048_S2048x640_S512x640_1_0_0_1_n_n.contr.Idx) :
    (dot_S512x2048_S2048x640_S512x640_1_0_0_1_n_n.lhsIdx i q 1).val = (q ⟨0, by decide⟩).val :=
  dot_S512x2048_S2048x640_S512x640_1_0_0_1_n_n.lhsIdx_val_of_single rfl i q
/-- Row of the `Why` block read by the product: the summation index. -/
private theorem scoresRhs_0 (i : S512x640.Idx) (q : dot_S512x2048_S2048x640_S512x640_1_0_0_1_n_n.contr.Idx) :
    (dot_S512x2048_S2048x640_S512x640_1_0_0_1_n_n.rhsIdx i q 0).val = (q ⟨0, by decide⟩).val :=
  dot_S512x2048_S2048x640_S512x640_1_0_0_1_n_n.rhsIdx_val_of_single rfl i q
/-- Its column: the entry's column. -/
private theorem scoresRhs_1 (i : S512x640.Idx) (q : dot_S512x2048_S2048x640_S512x640_1_0_0_1_n_n.contr.Idx) :
    (dot_S512x2048_S2048x640_S512x640_1_0_0_1_n_n.rhsIdx i q 1).val = (i 1).val := by
  unfold DotDims.rhsIdx
  rw [dif_neg (show ¬(1 : Fin S2048x640.rank) ∈ dot_S512x2048_S2048x640_S512x640_1_0_0_1_n_n.rhsBatch by decide), dif_pos (show (1 : Fin S2048x640.rank) ∈ dot_S512x2048_S2048x640_S512x640_1_0_0_1_n_n.rhsNonContracting by decide)]
  rfl

/-- The stored block at entry (p, q): the inner product of row p of the hidden block with column q of the `Why` block,
    plus entry q of the bias block (the narrowing of the factors is the identity on the extended reals). -/
private theorem scoresPay_apply (x0 : Vec Ideal S512x2048 .f32) (x1 : Vec Ideal S2048x640 .f32) (x2 : Vec Ideal S1x640 .f32)
    (p : Fin 512) (q : Fin 640) :
    k1_pay1 (F := Ideal) x0 x1 x2 (ix2 p q) = (∑ l : Fin 2048, x0 (ix2 p l) * x1 (ix2 l q)) + x2 (ix2 (0 : Fin 1) q) := by
  unfold k1_pay1
  rw [addf_apply, shapeCast_self, shapeCast_self, broadcastTo_1b_ab_apply]
  simp only [matmul]
  rw [Ideal.matmul_constant_zero_apply, ← Equiv.sum_comp (contrEquiv1 dot_S512x2048_S2048x640_S512x640_1_0_0_1_n_n 2048 rfl rfl).symm]
  refine congrArg (· + x2 (ix2 (0 : Fin 1) q)) (Finset.sum_congr rfl fun k _ => ?_)
  rw [truncf_apply, truncf_apply]
  have hk := contrEquiv1_symm_val dot_S512x2048_S2048x640_S512x640_1_0_0_1_n_n 2048 rfl rfl k
  have el : dot_S512x2048_S2048x640_S512x640_1_0_0_1_n_n.lhsIdx (ix2 p q) ((contrEquiv1 dot_S512x2048_S2048x640_S512x640_1_0_0_1_n_n 2048 rfl rfl).symm k) = ix2 p k := funext fun a => Fin.ext (by
    match a with
    | ⟨0, _⟩ => exact scoresLhs_0 _ _
    | ⟨1, _⟩ => exact (scoresLhs_1 _ _).trans hk)
  have er : dot_S512x2048_S2048x640_S512x640_1_0_0_1_n_n.rhsIdx (ix2 p q) ((contrEquiv1 dot_S512x2048_S2048x640_S512x640_1_0_0_1_n_n 2048 rfl rfl).symm k) = ix2 k q := funext fun a => Fin.ext (by
    match a with
    | ⟨0, _⟩ => exact (scoresRhs_0 _ _).trans hk
    | ⟨1, _⟩ => exact scoresRhs_1 _ _)
  rw [el, er]

/-! ## The index maps over the grid -/

private theorem zeroOff : (![0, 0] : Fin 2 → Nat) = fun _ => 0 := funext fun a => by fin_cases a <;> rfl

/-- Point t = 50 b + j of the 8 x 50 grid: the hidden layer's block is row block b, the blocks of `Why` and of the
    bias row are column block j, and the output's block is (b, j). -/
private theorem scoresIdx : ∀ t : Fin cfg1.N,
    win1_0.index t (0 : Fin 2) = t.val / 50 ∧ win1_0.index t (1 : Fin 2) = 0
    ∧ win1_1.index t (0 : Fin 2) = 0 ∧ win1_1.index t (1 : Fin 2) = t.val % 50
    ∧ win1_2.index t (0 : Fin 2) = 0 ∧ win1_2.index t (1 : Fin 2) = t.val % 50
    ∧ win1_3.index t (0 : Fin 2) = t.val / 50 ∧ win1_3.index t (1 : Fin 2) = t.val % 50 :=
  (by decide +kernel : ∀ t : Fin grid1.N, _)

/-! ## The input blocks as parts of their arrays -/

/-- The hidden layer's block at point `t` is rows 512 (t / 50) … 512 (t / 50) + 511 of the hidden layer. -/
private theorem hiddenBlk_apply (V : (c : Dev nD) → (b : Ref sig .tc) → Buf (Elt Ideal) ((c : Thread nD τ).loc b)) (c : Dev nD) (t : Fin cfg1.N)
    (x : S512x2048.Idx) (k : S4096x2048.Idx) (hk0 : (k 0).val = 512 * (t.val / 50) + (x 0).val) (hk1 : (k 1).val = (x 1).val) :
    (iblk1 (F := Ideal) V c 0 t : Vec Ideal S512x2048 .f32) x = (V c main_v3 : S4096x2048.Idx → Elt Ideal .f32) k := by
  obtain ⟨e0, e1, -⟩ := scoresIdx t
  unfold iblk1
  rw [View.read_apply]
  show V c main_v3 _ = V c main_v3 _
  congr 1
  funext a
  apply Fin.ext
  match a with
  | ⟨0, _⟩ => show win1_0.index t 0 * 512 + 1 * (x 0).val = (k 0).val; rw [e0, hk0]; omega
  | ⟨1, _⟩ => show win1_0.index t 1 * 2048 + 1 * (x 1).val = (k 1).val; rw [e1, hk1]; omega

/-- The block of `Why` at point `t` is its columns 640 (t % 50) … 640 (t % 50) + 639. -/
private theorem whyBlk_apply (V : (c : Dev nD) → (b : Ref sig .tc) → Buf (Elt Ideal) ((c : Thread nD τ).loc b)) (c : Dev nD) (t : Fin cfg1.N)
    (x : S2048x640.Idx) (k : S2048x32000.Idx) (hk0 : (k 0).val = (x 0).val) (hk1 : (k 1).val = 640 * (t.val % 50) + (x 1).val) :
    (iblk1 (F := Ideal) V c 1 t : Vec Ideal S2048x640 .f32) x = (V c main_arg4 : S2048x32000.Idx → Elt Ideal .f32) k := by
  obtain ⟨-, -, e0, e1, -⟩ := scoresIdx t
  unfold iblk1
  rw [View.read_apply]
  show V c main_arg4 _ = V c main_arg4 _
  congr 1
  funext a
  apply Fin.ext
  match a with
  | ⟨0, _⟩ => show win1_1.index t 0 * 2048 + 1 * (x 0).val = (k 0).val; rw [e0, hk0]; omega
  | ⟨1, _⟩ => show win1_1.index t 1 * 640 + 1 * (x 1).val = (k 1).val; rw [e1, hk1]; omega

/-- The block of the bias row at point `t` is its entries 640 (t % 50) … 640 (t % 50) + 639. -/
private theorem biasBlk_apply (V : (c : Dev nD) → (b : Ref sig .tc) → Buf (Elt Ideal) ((c : Thread nD τ).loc b)) (c : Dev nD) (t : Fin cfg1.N)
    (x : S1x640.Idx) (k : S1x32000.Idx) (hk0 : (k 0).val = (x 0).val) (hk1 : (k 1).val = 640 * (t.val % 50) + (x 1).val) :
    (iblk1 (F := Ideal) V c 2 t : Vec Ideal S1x640 .f32) x = (V c main_v4 : S1x32000.Idx → Elt Ideal .f32) k := by
  obtain ⟨-, -, -, -, e0, e1, -⟩ := scoresIdx t
  unfold iblk1
  rw [View.read_apply]
  show V c main_v4 _ = V c main_v4 _
  congr 1
  funext a
  apply Fin.ext
  match a with
  | ⟨0, _⟩ => show win1_2.index t 0 * 1 + 1 * (x 0).val = (k 0).val; rw [e0, hk0]; omega
  | ⟨1, _⟩ => show win1_2.index t 1 * 640 + 1 * (x 1).val = (k 1).val; rw [e1, hk1]; omega

/-! ## What a point writes back -/

/-- An entry of the stored block is the scores' entry it lies under, once each input block's entries are those of its
    array: row p of the hidden block is row r of the hidden layer, column q of the `Why` and bias blocks is column s of
    `Why` and of the bias row. -/
private theorem scoresEntry (h : FVec Ideal ⟨2, ![4096, 2048]⟩ .f32) (why : FVec Ideal ⟨2, ![2048, 32000]⟩ .f32)
    (brow : FVec Ideal ⟨2, ![1, 32000]⟩ .f32)
    (x0 : Vec Ideal S512x2048 .f32) (x1 : Vec Ideal S2048x640 .f32) (x2 : Vec Ideal S1x640 .f32)
    (p : Fin 512) (q : Fin 640) (r : Fin 4096) (s : Fin 32000)
    (h0 : ∀ l : Fin 2048, x0 (ix2 p l) = h (ix2 r l))
    (h1 : ∀ l : Fin 2048, x1 (ix2 l q) = why (ix2 l s))
    (h2 : x2 (ix2 (0 : Fin 1) q) = brow (ix2 (0 : Fin 1) s)) :
    k1_pay1 (F := Ideal) x0 x1 x2 (ix2 p q) = Cert.Spec.scoresRow h why brow (ix2 r s) := by
  rw [scoresPay_apply, h2]
  show _ = (∑ v : Fin 2048, h (ix2 r v) * why (ix2 v s)) + brow (ix2 (0 : Fin 1) s)
  refine congrArg (· + brow (ix2 (0 : Fin 1) s)) (Finset.sum_congr rfl fun l _ => ?_)
  rw [h0 l, h1 l]

/-- What point `t` writes back is its block of the scores of the arrays the region was entered with. -/
private theorem scoresFlushed (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.scoresRow (V c main_v3) (V c main_arg4) (V c main_v4)) := by
  show (cfg1.win 3).cut (grid1.coords t) ((dat1 (F := Ideal) V c).after 3 t) = _
  rw [after1_3]
  unfold out1_3
  rw [View.canon_unit_zero zeroOff]
  simp only [View.ld_unit_zero (S := S512x2048) zeroOff, View.ld_unit_zero (S := S2048x640) zeroOff,
    View.ld_unit_zero (S := S1x640) zeroOff]
  obtain ⟨-, -, -, -, -, -, e0, e1⟩ := scoresIdx t
  have hN : t.val < 400 := Nat.lt_of_lt_of_eq t.isLt N_1
  funext y
  have hy0 : (y 0).val < 512 := (y 0).isLt
  have hy1 : (y 1).val < 640 := (y 1).isLt
  show k1_pay1 (iblk1 V c 0 t) (iblk1 V c 1 t) (iblk1 V c 2 t) ((cfg1.win 3).xinj (grid1.coords t) y)
    = Cert.Spec.scoresRow (V c main_v3) (V c main_arg4) (V c main_v4) (((cfg1.win 3).blk t).view.emb y)
  have ei : (cfg1.win 3).xinj (grid1.coords t) y = ix2 (⟨(y 0).val, hy0⟩ : Fin 512) (⟨(y 1).val, hy1⟩ : Fin 640) :=
    funext fun a => by
      match a with
      | ⟨0, _⟩ => rfl
      | ⟨1, _⟩ => rfl
  have ek : ((cfg1.win 3).blk t).view.emb y
      = ix2 (⟨512 * (t.val / 50) + (y 0).val, by omega⟩ : Fin 4096) (⟨640 * (t.val % 50) + (y 1).val, by omega⟩ : Fin 32000) :=
    funext fun a => Fin.ext (by
      match a with
      | ⟨0, _⟩ => show win1_3.index t 0 * 512 + 1 * (y 0).val = 512 * (t.val / 50) + (y 0).val; rw [e0]; omega
      | ⟨1, _⟩ => show win1_3.index t 1 * 640 + 1 * (y 1).val = 640 * (t.val % 50) + (y 1).val; rw [e1]; omega)
  rw [ei, ek]
  exact scoresEntry _ _ _ _ _ _ _ _ _ _
    (fun l => hiddenBlk_apply V c t _ _ rfl rfl) (fun l => whyBlk_apply V c t _ _ rfl rfl) (biasBlk_apply V c t _ _ rfl rfl)

/-! ## The blocks tile the array -/

/-- An entry of the array lies in point `t`'s block iff each coordinate lies in the block's range on its axis. -/
private theorem scoresMemBlk (t : Fin cfg1.N) (i : S4096x32000.Idx) :
    i ∈ ((cfg1.win 3).blk t).view.set
      ↔ ∀ a : Fin 2, win1_3.index t a * S512x640.size a ≤ (i a).val ∧ (i a).val < win1_3.index t a * S512x640.size a + S512x640.size a := by
  show i ∈ ((View.whole main_v5).slice (win1_3.rect t)).set ↔ _
  rw [View.set_slice_whole, Rect.mem_set_unit]
  exact Iff.rfl

/-- Entry (r, s) lies in the block written back at point 50 (r / 512) + s / 640. -/
private theorem scoresCover (i : S4096x32000.Idx) :
    ∃ t : Fin cfg1.N, (cfg1.win 3).flush t = true ∧ i ∈ ((cfg1.win 3).blk t).view.set := by
  have hi0 : (i 0).val < 4096 := (i 0).isLt
  have hi1 : (i 1).val < 32000 := (i 1).isLt
  have hlt : 50 * ((i 0).val / 512) + (i 1).val / 640 < cfg1.N := Nat.lt_of_lt_of_eq (by omega) N_1.symm
  obtain ⟨t, ht⟩ : ∃ t : Fin cfg1.N, t.val = 50 * ((i 0).val / 512) + (i 1).val / 640 := ⟨⟨_, hlt⟩, rfl⟩
  obtain ⟨-, -, -, -, -, -, e0, e1⟩ := scoresIdx t
  refine ⟨t, flush1_3 t, ?_⟩
  rw [scoresMemBlk]
  intro a
  match a with
  | ⟨0, _⟩ =>
    show win1_3.index t 0 * 512 ≤ (i 0).val ∧ (i 0).val < win1_3.index t 0 * 512 + 512
    rw [e0, ht]; omega
  | ⟨1, _⟩ =>
    show win1_3.index t 1 * 640 ≤ (i 1).val ∧ (i 1).val < win1_3.index t 1 * 640 + 640
    rw [e1, ht]; omega

/-- After the second region, at the exact reals, its output array is the scores of the arrays it was entered with:
    the hidden layer, `Why` and the bias row. -/
theorem arr1_eq (V : (c : Dev nD) → (b : Ref sig .tc) → Buf (Elt Ideal) ((c : Thread nD τ).loc b)) (c : Dev nD) :
    (dat1 (F := Ideal) V c).arrAt 3 cfg1.N = Cert.Spec.scoresRow (V c main_v3) (V c main_arg4) (V c main_v4) :=
  (dat1 (F := Ideal) V c).arrAt_eq_of_cover 3 (Cert.Spec.scoresRow (V c main_v3) (V c main_arg4) (V c main_v4))
    (fun t _ => scoresFlushed V c t) scoresCover

end Cert.KernelIdeal.Hand

end
-- ==== Proof.KI.Final.lean ====
/-
  The two results over the extended reals: the scores of the hidden layer and the hidden layer's last row, the hidden
  layer formed from `x`, `Wxh` and the shared row `hprev · Whh + bh` of the launch memory.
-/
import proofs.«125350_j40604620816471_1_alg».proof.Proof.KI.Ends
import proofs.«125350_j40604620816471_1_alg».proof.Proof.KI.V0Array
import proofs.«125350_j40604620816471_1_alg».proof.Proof.KI.V1Array

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ) (ρ : Dev nD → PrngReg)

/-- The hidden layer of the launch memory on core `c`. -/
def hiddenOf (c : Dev nD) : FVec Ideal ⟨2, ![4096, 2048]⟩ .f32 :=
  Cert.Spec.hidden (m ((c : Thread nD τ).loc main_arg1)) (m ((c : Thread nD τ).loc main_arg2)) (sharedRow m c)

/-- The first region leaves the hidden layer in its output array. -/
theorem hidden_eq (c : Dev nD) : (dat0 (F := Ideal) (E1 m) c).arrAt 3 cfg0.N = hiddenOf m c := by
  rw [arr0_eq, E1_arg1, E1_arg2, E1_v2]; rfl

/-- The first result: the scores of the hidden layer. -/
theorem final_v5 (c : Dev nD) :
    W5 m c main_v5 = Cert.Spec.scores (hiddenOf m c) (m ((c : Thread nD τ).loc main_arg4)) (m ((c : Thread nD τ).loc main_arg6)) := by
  rw [W5_v5, arr1_eq, E3_v3, hidden_eq, E3_arg4]
  exact Cert.Spec.scoresRow_of_flat _ _ _ _ (fun q => E3_v4 m c q)

/-- Slicing row 4095 out of a 4096-row array is its last row. -/
theorem slice_lastRow (h : FVec Ideal S4096x2048 .f32) :
    extractStridedSlice S1x2048 ![4095, 0] h slices_S4096x2048_S1x2048_4095_0 = Cert.Spec.lastRow h := by
  funext j
  obtain ⟨z, q, rfl⟩ : ∃ (z : Fin 1) (q : Fin 2048), j = ix2 z q := ⟨j 0, j 1, eq_ix2 j⟩
  refine extractStridedSlice_apply ![4095, 0] h slices_S4096x2048_S1x2048_4095_0 (ix2 z q) (ix2 (4095 : Fin 4096) q) ?_
  intro a
  match a with
  | ⟨0, _⟩ => simp
  | ⟨1, _⟩ => simp

/-- The second result: the hidden layer's last row. -/
theorem final_v6 (c : Dev nD) : W5 m c main_v6 = Cert.Spec.lastRow (hiddenOf m c) := by
  rw [W5_v6, hidden_eq]; exact slice_lastRow _

/-- The run with its results named: every weakly fair execution terminates, nothing faulting; the two results hold the
    scores and the last hidden row of the launch memory, and the argument arrays end as launched. -/
theorem run_value : θ_run defs (onTc (τ := τ) (main (F := Ideal))) ⟨m, fun _ => 0, ρ⟩ (fun r => ∀ c : Dev nD,
      r.2.mem ((c.tc : Thread nD τ).loc main_v5) = Cert.Spec.scores (hiddenOf m c) (m ((c : Thread nD τ).loc main_arg4)) (m ((c : Thread nD τ).loc main_arg6))
      ∧ r.2.mem ((c.tc : Thread nD τ).loc main_v6) = Cert.Spec.lastRow (hiddenOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v5 (by decide))).trans (final_v5 m c),
     (h c _ (mem_uc main_v6 (by decide))).trans (final_v6 m c),
     (h c _ (mem_uc main_arg0 (by decide))).trans (W5_keep m c main_arg0 (by decide) (by decide) (by decide) (by decide) (by decide)),
     (h c _ (mem_uc main_arg1 (by decide))).trans (W5_keep m c main_arg1 (by decide) (by decide) (by decide) (by decide) (by decide)),
     (h c _ (mem_uc main_arg2 (by decide))).trans (W5_keep m c main_arg2 (by decide) (by decide) (by decide) (by decide) (by decide)),
     (h c _ (mem_uc main_arg3 (by decide))).trans (W5_keep m c main_arg3 (by decide) (by decide) (by decide) (by decide) (by decide)),
     (h c _ (mem_uc main_arg4 (by decide))).trans (W5_keep m c main_arg4 (by decide) (by decide) (by decide) (by decide) (by decide)),
     (h c _ (mem_uc main_arg5 (by decide))).trans (W5_keep m c main_arg5 (by decide) (by decide) (by decide) (by decide) (by decide)),
     (h c _ (mem_uc main_arg6 (by decide))).trans (W5_keep m c main_arg6 (by decide) (by decide) (by decide) (by decide) (by decide))⟩)
    (run_all m ρ)

end Cert.KernelIdeal.Hand

end
-- ==== Proof.RefValue.lean ====
/-
  The reference program's two results, over the extended reals, are the scores of the hidden layer and the hidden
  layer's last row: its matrix products are the inner products over the whole contracted axis, its broadcasts repeat
  the shared row (and the bias) down the rows, its tanh is the extended reals' tanh entry by entry, and its slice
  takes row 4095.
-/
import proofs.«125350_j40604620816471_1_alg».proof.Proof.Gen.ReferenceIdeal.Run
import proofs.«125350_j40604620816471_1_alg».proof.Proof.Gen.ReferenceIdeal.Read
import proofs.«125350_j40604620816471_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The hidden layer as the reference computes it from `x`, `Wxh` and the shared row `hc`. -/
abbrev refHidden (a1 : FVec Ideal S4096x32000 .f32) (a2 : FVec Ideal S32000x2048 .f32) (hc : FVec Ideal S1x2048 .f32) : FVec Ideal S4096x2048 .f32 :=
  Host.tanh (F := Ideal) (addf (Host.dotGeneral (F := Ideal) dot_S4096x32000_S32000x2048_S4096x2048_1_0_0_1_n_n none a1 a2)
    (broadcastInDim S4096x2048 ![0, 1] bcast_S1x2048_S4096x2048_0_1 hc))

/-! ## The reference's operations read at an index given by its coordinates -/

/-- The tanh of an entrywise sum of two arrays over the extended reals, read at an index, is the extended reals' tanh
    of the sum of the two entries. -/
private theorem tanh_addf_apply {s : Shape} (X Y : FVec Ideal s .f32) (i : s.Idx) :
    Host.tanh (F := Ideal) (addf X Y) i = Ideal.tanh (X i + Y i) := rfl

/-- The first matrix product at row `r`, column `q`: the inner product of row `r` of `x` with column `q` of `Wxh`. -/
private theorem dotHidden_apply (a1 : FVec Ideal S4096x32000 .f32) (a2 : FVec Ideal S32000x2048 .f32) (r : Fin 4096) (q : Fin 2048) :
    Host.dotGeneral (F := Ideal) dot_S4096x32000_S32000x2048_S4096x2048_1_0_0_1_n_n none a1 a2 (ix2 r q)
      = ∑ v : Fin 32000, a1 (ix2 r v) * a2 (ix2 v q) := by
  have h := Read.val_main_v3_apply a1 a2 (ix2 r q)
  have el : ∀ k : Fin 32000, Read.lidx_main_v3 (ix2 r q) k = ix2 r k := fun k =>
    funext fun a => Fin.ext (by match a with | ⟨0, _⟩ => rfl | ⟨1, _⟩ => rfl)
  have er : ∀ k : Fin 32000, Read.ridx_main_v3 (ix2 r q) k = ix2 k q := fun k =>
    funext fun a => Fin.ext (by match a with | ⟨0, _⟩ => rfl | ⟨1, _⟩ => rfl)
  simp only [el, er] at h
  exact h

/-- The shared row repeated down the rows: at row `r`, column `q` it reads the row's entry `q`. -/
private theorem bcastRow_apply (hc : FVec Ideal S1x2048 .f32) (r : Fin 4096) (q : Fin 2048) :
    broadcastInDim S4096x2048 ![0, 1] bcast_S1x2048_S4096x2048_0_1 hc (ix2 r q) = hc (ix2 (0 : Fin 1) q) :=
  broadcastInDim_apply _ bcast_S1x2048_S4096x2048_0_1 hc (ix2 r q) (ix2 (0 : Fin 1) q) (fun a => match a with
    | ⟨0, _⟩ => by show 0 = if (1 : Nat) = 1 then 0 else r.val; rw [if_pos rfl]
    | ⟨1, _⟩ => by show q.val = if (2048 : Nat) = 1 then 0 else q.val; rw [if_neg (by decide)])

/-- The reference's hidden layer at row `r`, column `q` is the specification's entry. -/
private theorem refHidden_at (a1 : FVec Ideal S4096x32000 .f32) (a2 : FVec Ideal S32000x2048 .f32) (hc : FVec Ideal S1x2048 .f32)
    (r : Fin 4096) (q : Fin 2048) : refHidden a1 a2 hc (ix2 r q) = Cert.Spec.hiddenAt a1 a2 hc r q := by
  unfold Cert.Spec.hiddenAt refHidden
  rw [tanh_addf_apply, dotHidden_apply, bcastRow_apply]

/-- The second matrix product at row `r`, column `c`: the inner product of row `r` of its left operand with column
    `c` of `Why`, the sum re-indexed from the one-axis contraction index to its coordinate. -/
private theorem dotScores_apply (y : FVec Ideal S4096x2048 .f32) (a4 : FVec Ideal S2048x32000 .f32) (r : Fin 4096) (c : Fin 32000) :
    Host.dotGeneral (F := Ideal) dot_S4096x2048_S2048x32000_S4096x32000_1_0_0_1_n_n none y a4 (ix2 r c)
      = ∑ v : Fin 2048, y (ix2 r v) * a4 (ix2 v c) := by
  simp only [Host.dotGeneral]
  rw [Ideal.dotGeneral_apply, ← Equiv.sum_comp (contrEquiv1 dot_S4096x2048_S2048x32000_S4096x32000_1_0_0_1_n_n 2048 rfl rfl).symm]
  refine Finset.sum_congr rfl fun k _ => ?_
  have hk := contrEquiv1_symm_val dot_S4096x2048_S2048x32000_S4096x32000_1_0_0_1_n_n 2048 rfl rfl k
  have el : dot_S4096x2048_S2048x32000_S4096x32000_1_0_0_1_n_n.lhsIdx (ix2 r c)
      ((contrEquiv1 dot_S4096x2048_S2048x32000_S4096x32000_1_0_0_1_n_n 2048 rfl rfl).symm k) = ix2 r k :=
    funext fun a => Fin.ext (by
      match a with
      | ⟨0, _⟩ => exact Read.lhs_main_v7_0 _ _
      | ⟨1, _⟩ => exact (Read.lhs_main_v7_1 _ _).trans hk)
  have er : dot_S4096x2048_S2048x32000_S4096x32000_1_0_0_1_n_n.rhsIdx (ix2 r c)
      ((contrEquiv1 dot_S4096x2048_S2048x32000_S4096x32000_1_0_0_1_n_n 2048 rfl rfl).symm k) = ix2 k c :=
    funext fun a => Fin.ext (by
      match a with
      | ⟨0, _⟩ => exact (Read.rhs_main_v7_0 _ _).trans hk
      | ⟨1, _⟩ => exact Read.rhs_main_v7_1 _ _)
  rw [el, er]

/-- The flat bias laid out as one row and repeated down the rows: at row `r`, column `c` it reads the bias's entry `c`. -/
private theorem bcastBias_apply (a6 : FVec Ideal S32000 .f32) (r : Fin 4096) (c : Fin 32000) :
    broadcastInDim S4096x32000 ![0, 1] bcast_S1x32000_S4096x32000_0_1 (broadcastInDim S1x32000 ![1] bcast_S32000_S1x32000_1 a6) (ix2 r c)
      = a6 (ix1 c) := by
  rw [broadcastInDim_apply _ bcast_S1x32000_S4096x32000_0_1 (broadcastInDim S1x32000 ![1] bcast_S32000_S1x32000_1 a6) (ix2 r c)
    (ix2 (0 : Fin 1) c) (fun a => match a with
      | ⟨0, _⟩ => by show 0 = if (1 : Nat) = 1 then 0 else r.val; rw [if_pos rfl]
      | ⟨1, _⟩ => by show c.val = if (32000 : Nat) = 1 then 0 else c.val; rw [if_neg (by decide)])]
  exact broadcastInDim_apply _ bcast_S32000_S1x32000_1 a6 (ix2 (0 : Fin 1) c) (ix1 c) (fun a => match a with
    | ⟨0, _⟩ => by show c.val = if (32000 : Nat) = 1 then 0 else c.val; rw [if_neg (by decide)])

/-- The slice of row 4095: at column `q` of its one row it reads row 4095, column `q`. -/
private theorem sliceLast_apply (y : FVec Ideal S4096x2048 .f32) (z : Fin 1) (q : Fin 2048) :
    extractStridedSlice S1x2048 ![4095, 0] y slices_S4096x2048_S1x2048_4095_0 (ix2 z q) = y (ix2 (4095 : Fin 4096) q) :=
  extractStridedSlice_apply ![4095, 0] y slices_S4096x2048_S1x2048_4095_0 (ix2 z q) (ix2 (4095 : Fin 4096) q) (fun a => match a with
    | ⟨0, _⟩ => by have hz : z.val < 1 := z.isLt; show 4095 = 4095 + z.val; omega
    | ⟨1, _⟩ => by show q.val = 0 + q.val; omega)

/-- The reference's hidden layer is the specification's, entry by entry. -/
theorem refHidden_eq (a1 : FVec Ideal S4096x32000 .f32) (a2 : FVec Ideal S32000x2048 .f32) (hc : FVec Ideal S1x2048 .f32) :
    refHidden a1 a2 hc = Cert.Spec.hidden a1 a2 hc := by
  funext i
  obtain ⟨r, q, rfl⟩ : ∃ (r : Fin 4096) (q : Fin 2048), i = ix2 r q := ⟨i 0, i 1, eq_ix2 i⟩
  exact refHidden_at a1 a2 hc r q

/-- The reference's first result is the scores of the hidden layer. -/
theorem v10_eq (a1 : FVec Ideal S4096x32000 .f32) (a2 : FVec Ideal S32000x2048 .f32) (hc : FVec Ideal S1x2048 .f32)
    (a4 : FVec Ideal S2048x32000 .f32) (a6 : FVec Ideal S32000 .f32) :
    addf (Host.dotGeneral (F := Ideal) dot_S4096x2048_S2048x32000_S4096x32000_1_0_0_1_n_n none (refHidden a1 a2 hc) a4)
      (broadcastInDim S4096x32000 ![0, 1] bcast_S1x32000_S4096x32000_0_1 (broadcastInDim S1x32000 ![1] bcast_S32000_S1x32000_1 a6))
    = Cert.Spec.scores (Cert.Spec.hidden a1 a2 hc) a4 a6 := by
  rw [refHidden_eq a1 a2 hc]
  generalize Cert.Spec.hidden a1 a2 hc = h
  funext i
  obtain ⟨r, c, rfl⟩ : ∃ (r : Fin 4096) (c : Fin 32000), i = ix2 r c := ⟨i 0, i 1, eq_ix2 i⟩
  show _ = Cert.Spec.scoresAt h a4 a6 r c
  unfold Cert.Spec.scoresAt
  rw [addf_apply, dotScores_apply, bcastBias_apply]

/-- The reference's second result is the hidden layer's last row. -/
theorem v11_eq (a1 : FVec Ideal S4096x32000 .f32) (a2 : FVec Ideal S32000x2048 .f32) (hc : FVec Ideal S1x2048 .f32) :
    extractStridedSlice S1x2048 ![4095, 0] (refHidden a1 a2 hc) slices_S4096x2048_S1x2048_4095_0
    = Cert.Spec.lastRow (Cert.Spec.hidden a1 a2 hc) := by
  rw [refHidden_eq a1 a2 hc]
  generalize Cert.Spec.hidden a1 a2 hc = h
  funext j
  obtain ⟨z, q, rfl⟩ : ∃ (z : Fin 1) (q : Fin 2048), j = ix2 z q := ⟨j 0, j 1, eq_ix2 j⟩
  exact sliceLast_apply h z q

end Cert.ReferenceIdeal.RefValue

end
-- ==== Proof.lean ====
/-
  One step of a recurrent layer applied to every row of a 4096-row sequence at once, as two tiled matrix-product kernels,
  against the same computation written with whole-array operations.

  Both programs form the shared row `hc = hprev · Whh + bh` with the same host operations. The kernel program then forms
  the hidden layer `h = tanh (x · Wxh + hc)` in a first kernel: for each block of 512 rows it walks the contracted axis
  (32000 long) in 50 steps of 640, adding each step's block product into an accumulator that it clears at the first
  step, and at the last step writes tanh of the accumulator plus `hc`. A second kernel forms the scores
  `h · Why + by` block by block (512 rows by 640 columns, the whole contracted axis of 2048 at once), and the last
  row of `h` is sliced out. Over the extended reals the narrowing of the products' operands to a shorter float format
  is the identity and addition is associative and commutative, so the accumulator after the last step is the whole
  inner product, whatever the entries are (no finiteness is used): the kernel program's results are the
  reference's, entry by entry — `Cert.Spec.scores (Cert.Spec.hidden x Wxh hc) Why by` and the last row of
  `Cert.Spec.hidden x Wxh hc`.

  The three frames: the reference's is its run with the results dropped; each kernel program's (the word-level one and
  its reading over the extended reals are the same text) follows from the run of its five items — host operations,
  first region, host operation, second region, host operation — in which no item writes an argument array.
  The idealization changed no operation, so there is nothing to preserve beyond the text itself.
-/
import proofs.«125350_j40604620816471_1_alg».proof.Defs
import proofs.«125350_j40604620816471_1_alg».proof.Proof.Gen.Kernel
import proofs.«125350_j40604620816471_1_alg».proof.Proof.Gen.KernelIdeal
import proofs.«125350_j40604620816471_1_alg».proof.Proof.Gen.ReferenceIdeal
import proofs.«125350_j40604620816471_1_alg».proof.Proof.Gen.ReferenceIdeal.Run
import proofs.«125350_j40604620816471_1_alg».proof.Proof.Gen.ReferenceIdeal.Read
import proofs.«125350_j40604620816471_1_alg».proof.Proof.Gen.Pre_finite_inputs
import proofs.«125350_j40604620816471_1_alg».proof.Proof.K.Frame
import proofs.«125350_j40604620816471_1_alg».proof.Proof.KI.Final
import proofs.«125350_j40604620816471_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The shared row as the reference's host operations form it. -/
abbrev refRow (a0 : FVec Ideal Cert.ReferenceIdeal.S1x2048 .f32) (a3 : FVec Ideal Cert.ReferenceIdeal.S2048x2048 .f32)
    (a5 : FVec Ideal Cert.ReferenceIdeal.S2048 .f32) : FVec Ideal Cert.ReferenceIdeal.S1x2048 .f32 :=
  addf (Host.dotGeneral (F := Ideal) Cert.ReferenceIdeal.dot_S1x2048_S2048x2048_S1x2048_1_0_0_1_n_n none a0 a3)
    (broadcastInDim Cert.ReferenceIdeal.S1x2048 ![1] Cert.ReferenceIdeal.Facts₀.bcast_S2048_S1x2048_1 a5)

/-- The shared row is formed by the same three host operations in both programs. -/
theorem sharedRow_ref (m : (ℓ : Loc Cert.KernelIdeal.nD Cert.KernelIdeal.τ Cert.KernelIdeal.sig) → Buf (Elt Ideal) ℓ) (c : Dev Cert.KernelIdeal.nD) :
    Cert.KernelIdeal.Hand.sharedRow (F := Ideal) m c
      = refRow (m ((c.tc : Thread Cert.KernelIdeal.nD Cert.KernelIdeal.τ).loc Cert.KernelIdeal.main_arg0))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg5)) := rfl

/-- Over the extended reals both programs end with the scores of the hidden layer and the hidden layer's last row. -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1, (hagree c).2.2.2.2.2.2]
    refine (Cert.ReferenceIdeal.RefValue.v10_eq _ _ _ _ _).trans ?_
    unfold Cert.KernelIdeal.Hand.hiddenOf
    rw [sharedRow_ref]
  · rw [(hagree c).1, (hagree c).2.1, (hagree c).2.2.1, (hagree c).2.2.2.1, (hagree c).2.2.2.2.2.1]
    refine (Cert.ReferenceIdeal.RefValue.v11_eq _ _ _).trans ?_
    unfold Cert.KernelIdeal.Hand.hiddenOf
    rw [sharedRow_ref]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
